-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500000x128 : Shape := ⟨2, ![500000, 128]⟩
abbrev S1000000x128 : Shape := ⟨2, ![1000000, 128]⟩
abbrev S128x128 : Shape := ⟨2, ![128, 128]⟩
abbrev S64x128 : Shape := ⟨2, ![64, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S1000000x128 : S_.BroadcastsInDim S1000000x128 (![] : Fin 0 → Fin S1000000x128.rank)
  reducesTo_S1000000x128_S_d0_1 : S1000000x128.ReducesTo [0, 1] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_

variable [Facts]

def fn_part3 {F : FTy → Type} [FloatOps F] (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  main_v53

def fn_part2 {F : FTy → Type} [FloatOps F] (main_arg7 : FVec F S64x128 .f32) (main_arg8 : FVec F S64x128 .f32) (main_arg9 : FVec F S64x128 .f32) (main_arg10 : FVec F S64x128 .f32) (main_v33 : IVec S_ 1) : IVec S_ 1 :=
  let main_v34 : FVec F S64x128 .f32 := Host.absf main_arg7
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64x128 .f32 := Host.absf main_arg8
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64x128 .f32 := Host.absf main_arg9
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64x128 .f32 := Host.absf main_arg10
  let main_cst_18 : FVec F S_ .f32 := constant S_ .f32 0x7F800000#32
  let main_v50 : FVec F S64x128 .f32 := broadcastInDim S64x128 ![] bcast_S_S64x128 main_cst_18
  fn_part3 (F := F) main_v48 main_v49 main_v50

def fn_part1 {F : FTy → Type} [FloatOps F] (main_arg4 : FVec F S128x128 .f32) (main_arg5 : FVec F S128x128 .f32) (main_arg6 : FVec F S128x128 .f32) (main_arg7 : FVec F S64x128 .f32) (main_arg8 : FVec F S64x128 .f32) (main_arg9 : FVec F S64x128 .f32) (main_arg10 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x128 .f32) (main_arg1 : FVec F S500000x128 .f32) (main_arg2 : FVec F S1000000x128 .f32) (main_arg3 : FVec F S128x128 .f32) (main_arg4 : FVec F S128x128 .f32) (main_arg5 : FVec F S128x128 .f32) (main_arg6 : FVec F S128x128 .f32) (main_arg7 : FVec F S64x128 .f32) (main_arg8 : FVec F S64x128 .f32) (main_arg9 : FVec F S64x128 .f32) (main_arg10 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S1000000x128 .f32 := Host.absf main_arg2
  let main_cst_2 : FVec F S_ .f32 := constant S_ .f32 0x7F800000#32
  let main_v10 : FVec F S1000000x128 .f32 := broadcastInDim S1000000x128 ![] bcast_S_S1000000x128 main_cst_2
  let main_v11 : IVec S1000000x128 1 := cmpf .olt main_v9 main_v10
  let main_c_3 : IVec S_ 1 := constantI S_ 1 1#1
  let main_v12 : IVec S_ 1 := (fun x v => Host.reduce IntOp.andi x v reducesTo_S1000000x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S100000x128 : Shape := ⟨2, ![100000, 128]⟩
abbrev S500000x128 : Shape := ⟨2, ![500000, 128]⟩
abbrev S1000000x128 : Shape := ⟨2, ![1000000, 128]⟩
abbrev S128x128 : Shape := ⟨2, ![128, 128]⟩
abbrev S64x128 : Shape := ⟨2, ![64, 128]⟩
abbrev S128x64 : Shape := ⟨2, ![128, 64]⟩
abbrev S100000x64 : Shape := ⟨2, ![100000, 64]⟩
abbrev S1000x128 : Shape := ⟨2, ![1000, 128]⟩
abbrev S5000x128 : Shape := ⟨2, ![5000, 128]⟩
abbrev S10000x128 : Shape := ⟨2, ![10000, 128]⟩
abbrev S1000x64 : Shape := ⟨2, ![1000, 64]⟩
abbrev S1000x5x128 : Shape := ⟨3, ![1000, 5, 128]⟩
abbrev S5000x2x128 : Shape := ⟨3, ![5000, 2, 128]⟩

abbrev nBuf : Space → Nat
  | .hbm => 20
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S500000x128, .f32⟩
  | .hbm, ⟨2, _⟩ => ⟨S1000000x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S64x128, .f32⟩
  | .hbm, ⟨8, _⟩ => ⟨S64x128, .f32⟩
  | .hbm, ⟨9, _⟩ => ⟨S64x128, .f32⟩
  | .hbm, ⟨10, _⟩ => ⟨S64x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x64, .f32⟩
  | .hbm, ⟨16, _⟩ => ⟨S128x64, .f32⟩
  | .hbm, ⟨17, _⟩ => ⟨S128x64, .f32⟩
  | .hbm, ⟨18, _⟩ => ⟨S128x64, .f32⟩
  | .hbm, ⟨19, _⟩ => ⟨S100000x64, .f32⟩
  | .local _ .vmem, ⟨0, _⟩ => ⟨S1000x128, .f32⟩
  | .local _ .vmem, ⟨1, _⟩ => ⟨S1000x128, .f32⟩
  | .local _ .vmem, ⟨2, _⟩ => ⟨S5000x128, .f32⟩
  | .local _ .vmem, ⟨3, _⟩ => ⟨S5000x128, .f32⟩
  | .local _ .vmem, ⟨4, _⟩ => ⟨S10000x128, .f32⟩
  | .local _ .vmem, ⟨5, _⟩ => ⟨S10000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x64, .f32⟩
  | .local _ .vmem, ⟨11, _⟩ => ⟨S128x64, .f32⟩
  | .local _ .vmem, ⟨12, _⟩ => ⟨S128x64, .f32⟩
  | .local _ .vmem, ⟨13, _⟩ => ⟨S128x64, .f32⟩
  | .local _ .vmem, ⟨14, _⟩ => ⟨S1000x64, .f32⟩
  | .local _ .vmem, ⟨15, _⟩ => ⟨S1000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S128x128_S128x128_1_0 : S128x128.Transposes [1, 0] S128x128
  transposes_S64x128_S128x64_1_0 : S64x128.Transposes [1, 0] S128x64
  inb_S1000x128_S1000x128_0_0 : ∀ a, (![0, 0] : Fin 2 → Nat) a + S1000x128.size a ≤ S1000x128.size a
  h_S1000x128 : 0 < S1000x128.numel
  inb_S5000x128_S5000x128_0_0 : ∀ a, (![0, 0] : Fin 2 → Nat) a + S5000x128.size a ≤ S5000x128.size a
  h_S5000x128 : 0 < S5000x128.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S5000x128_S1000x5x128 : S5000x128.ShapeCasts S1000x5x128
  reduces_S1000x5x128_S1000x128 : S1000x5x128.Reduces [1] S1000x128
  natLt_1_32 : 1 < 32
  shapeCasts_S10000x128_S5000x2x128 : S10000x128.ShapeCasts S5000x2x128
  reduces_S5000x2x128_S5000x128 : S5000x2x128.Reduces [1] S5000x128
  inb_S1000x64_S1000x64_0_0 : ∀ a, (![0, 0] : Fin 2 → Nat) a + S1000x64.size a ≤ S1000x64.size a
  h_S1000x64 : 0 < S1000x64.numel
  dot_S1000x128_S128x128_S1000x128_1_0_0_1_n_n_wf : DotDims.WF S1000x128 S128x128 S1000x128 [1] [0] [0] [1] [] []
  dot_S5000x128_S128x128_S5000x128_1_0_0_1_n_n_wf : DotDims.WF S5000x128 S128x128 S5000x128 [1] [0] [0] [1] [] []
  dot_S1000x128_S128x64_S1000x64_1_0_0_1_n_n_wf : DotDims.WF S1000x128 S128x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S1000000x128.size a
  hwx0_2 : ∀ i : grid0.Coords, EltTy.bits .f32 = 32 ∨ (Rect.block (s := S1000000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .f32 = 32 ∨ (Rect.block (s := S128x64) S128x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x64.size a ≤ S128x64.size a
  hwx0_10 : ∀ i : grid0.Coords, EltTy.bits .f32 = 32 ∨ (Rect.block (s := S128x64) S128x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1000x64.size a ≤ S100000x64.size a
  hwx0_11 : ∀ i : grid0.Coords, EltTy.bits .f32 = 32 ∨ (Rect.block (s := S100000x64) S1000x64.size (cc0_transform_11 i) (hinb0_11 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S128x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S1000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x128 : Shape := ⟨2, ![100000, 128]⟩
abbrev S500000x128 : Shape := ⟨2, ![500000, 128]⟩
abbrev S1000000x128 : Shape := ⟨2, ![1000000, 128]⟩
abbrev S128x128 : Shape := ⟨2, ![128, 128]⟩
abbrev S64x128 : Shape := ⟨2, ![64, 128]⟩
abbrev S600000x128 : Shape := ⟨2, ![600000, 128]⟩
abbrev S100000x5x128 : Shape := ⟨3, ![100000, 5, 128]⟩
abbrev S_ : Shape := ⟨0, ![]⟩
abbrev S500000x2x128 : Shape := ⟨3, ![500000, 2, 128]⟩
abbrev S128x64 : Shape := ⟨2, ![128, 64]⟩
abbrev S100000x64 : Shape := ⟨2, ![100000, 64]⟩

abbrev nBuf : Space → Nat
  | .hbm => 79
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S500000x128, .f32⟩
  | .hbm, ⟨2, _⟩ => ⟨S1000000x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S64x128, .f32⟩
  | .hbm, ⟨8, _⟩ => ⟨S64x128, .f32⟩
  | .hbm, ⟨9, _⟩ => ⟨S64x128, .f32⟩
  | .hbm, ⟨10, _⟩ => ⟨S64x128, .f32⟩
  | .hbm, ⟨11, _⟩ => ⟨S600000x128, .f32⟩
  | .hbm, ⟨12, _⟩ => ⟨S100000x5x128, .f32⟩
  | .hbm, ⟨13, _⟩ => ⟨S_, .f32⟩
  | .hbm, ⟨14, _⟩ => ⟨S100000x128, .f32⟩
  | .hbm, ⟨15, _⟩ => ⟨S_, .f32⟩
  | .hbm, ⟨16, _⟩ => ⟨S100000x128, .f32⟩
  | .hbm, ⟨17, _⟩ => ⟨S100000x128, .f32⟩
  | .hbm, ⟨18, _⟩ => ⟨S500000x2x128, .f32⟩
  | .hbm, ⟨19, _⟩ => ⟨S_, .f32⟩
  | .hbm, ⟨20, _⟩ => ⟨S500000x128, .f32⟩
  | .hbm, ⟨21, _⟩ => ⟨S_, .f32⟩
  | .hbm, ⟨22, _⟩ => ⟨S500000x128, .f32⟩
  | .hbm, ⟨23, _⟩ => ⟨S500000x128, .f32⟩
  | .hbm, ⟨24, _⟩ => ⟨S600000x128, .f32⟩
  | .hbm, ⟨25, _⟩ => ⟨S128x128, .f32⟩
  | .hbm, ⟨26, _⟩ => ⟨S600000x128, .f32⟩
  | .hbm, ⟨27, _⟩ => ⟨S128x128, .f32⟩
  | .hbm, ⟨28, _⟩ => ⟨S600000x128, .f32⟩
  | .hbm, ⟨29, _⟩ => ⟨S600000x128, .f32⟩
  | .hbm, ⟨30, _⟩ => ⟨S128x128, .f32⟩
  | .hbm, ⟨31, _⟩ => ⟨S600000x128, .f32⟩
  | .hbm, ⟨32, _⟩ => ⟨S128x128, .f32⟩
  | .hbm, ⟨33, _⟩ => ⟨S600000x128, .f32⟩
  | .hbm, ⟨34, _⟩ => ⟨S600000x128, .f32⟩
  | .hbm, ⟨35, _⟩ => ⟨S600000x128, .f32⟩
  | .hbm, ⟨36, _⟩ => ⟨S600000x128, .f32⟩
  | .hbm, ⟨37, _⟩ => ⟨S_, .f32⟩
  | .hbm, ⟨38, _⟩ => ⟨S600000x128, .f32⟩
  | .hbm, ⟨39, _⟩ => ⟨S600000x128, .f32⟩
  | .hbm, ⟨40, _⟩ => ⟨S_, .f32⟩
  | .hbm, ⟨41, _⟩ => ⟨S600000x128, .f32⟩
  | .hbm, ⟨42, _⟩ => ⟨S600000x128, .f32⟩
  | .hbm, ⟨43, _⟩ => ⟨S_, .f32⟩
  | .hbm, ⟨44, _⟩ => ⟨S600000x128, .f32⟩
  | .hbm, ⟨45, _⟩ => ⟨S600000x128, .i1⟩
  | .hbm, ⟨46, _⟩ => ⟨S600000x128, .f32⟩
  | .hbm, ⟨47, _⟩ => ⟨S600000x128, .f32⟩
  | .hbm, ⟨48, _⟩ => ⟨S100000x128, .f32⟩
  | .hbm, ⟨49, _⟩ => ⟨S500000x128, .f32⟩
  | .hbm, ⟨50, _⟩ => ⟨S100000x5x128, .f32⟩
  | .hbm, ⟨51, _⟩ => ⟨S_, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S128x64, .f32⟩
  | .hbm, ⟨57, _⟩ => ⟨S100000x64, .f32⟩
  | .hbm, ⟨58, _⟩ => ⟨S128x64, .f32⟩
  | .hbm, ⟨59, _⟩ => ⟨S100000x64, .f32⟩
  | .hbm, ⟨60, _⟩ => ⟨S100000x64, .f32⟩
  | .hbm, ⟨61, _⟩ => ⟨S128x64, .f32⟩
  | .hbm, ⟨62, _⟩ => ⟨S100000x64, .f32⟩
  | .hbm, ⟨63, _⟩ => ⟨S128x64, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S100000x64, .f32⟩
  | .hbm, ⟨76, _⟩ => ⟨S100000x64, .i1⟩
  | .hbm, ⟨77, _⟩ => ⟨S100000x64, .f32⟩
  | .hbm, ⟨78, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]

class Facts₀ : Prop where
  concatenates_S100000x128_S500000x128_S600000x128_d0 : Shape.Concatenates [S100000x128, S500000x128] S600000x128 0
  shapeCasts_S500000x128_S100000x5x128 : S500000x128.ShapeCasts S100000x5x128
  reducesTo_S100000x5x128_S100000x128_d1 : S100000x5x128.ReducesTo [1] S100000x128
  h_S_ : 0 < S_.numel
  bcast_S_S100000x128 : S_.BroadcastsInDim S100000x128 (![] : Fin 0 → Fin S100000x128.rank)
  shapeCasts_S1000000x128_S500000x2x128 : S1000000x128.ShapeCasts S500000x2x128
  reducesTo_S500000x2x128_S500000x128_d1 : S500000x2x128.ReducesTo [1] S500000x128
  bcast_S_S500000x128 : S_.BroadcastsInDim S500000x128 (![] : Fin 0 → Fin S500000x128.rank)
  transposes_S128x128_S128x128_1_0 : S128x128.Transposes [1, 0] S128x128
  bcast_S_S600000x128 : S_.BroadcastsInDim S600000x128 (![] : Fin 0 → Fin S600000x128.rank)
  slices_S600000x128_S100000x128_0_0 : S600000x128.Slices ![0, 0] S100000x128
  slices_S600000x128_S500000x128_100000_0 : S600000x128.Slices ![100000, 0] S500000x128
  transposes_S64x128_S128x64_1_0 : S64x128.Transposes [1, 0] S128x64
  bcast_S_S100000x64 : S_.BroadcastsInDim S100000x64 (![] : Fin 0 → Fin S100000x64.rank)
  dot_S600000x128_S128x128_S600000x128_1_0_0_1_n_n_wf : DotDims.WF S600000x128 S128x128 S600000x128 [1] [0] [0] [1] [] []
  dot_S100000x128_S128x64_S100000x64_1_0_0_1_n_n_wf : DotDims.WF S100000x128 S128x64 S100000x64 [1] [0] [0] [1] [] []

variable [Facts₀]

def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibIdealReal.lean ====
/-
  The float operations at the ideal values — a float is an extended real — on arguments that are coerced reals:
  each gives the coerced real operation. The arithmetic of coerced reals, the absolute value, minimum and
  maximum; the exponential and the logarithm; the quotient by a nonzero real; the extended reals that six
  32-bit patterns denote; the conversions of a one-bit word and of a signed word; the comparison of two
  coerced reals; a finite sum of coerced reals; and the maximum of finitely many coerced reals, folded from
  the bottom element.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Log.Basic
import Mathlib.Algebra.BigOperators.Group.Finset.Basic
import Mathlib.Data.Finset.Lattice.Fold

noncomputable section

namespace Cert.LibIdealReal

open Idealize.ShloMosaic
open scoped BigOperators

variable {φ : FTy}

/-! ## Arithmetic of coerced reals -/

/-- The product of two coerced reals is the coerced product. -/
theorem mul_coe (a b : ℝ) : (a : EReal) * (b : EReal) = ((a * b : ℝ) : EReal) := (EReal.coe_mul a b).symm

/-- The sum of two coerced reals is the coerced sum. -/
theorem add_coe (a b : ℝ) : (a : EReal) + (b : EReal) = ((a + b : ℝ) : EReal) := (EReal.coe_add a b).symm

/-- The difference of two coerced reals is the coerced difference. -/
theorem sub_coe (a b : ℝ) : (a : EReal) - (b : EReal) = ((a - b : ℝ) : EReal) := (EReal.coe_sub a b).symm

/-- The negation of a coerced real is the coerced negation. -/
theorem neg_coe (a : ℝ) : -(a : EReal) = ((-a : ℝ) : EReal) := (EReal.coe_neg a).symm

/-- The maximum of two coerced reals is the coerced maximum. -/
theorem max_coe (a b : ℝ) : max (a : EReal) (b : EReal) = ((max a b : ℝ) : EReal) :=
  (EReal.coe_strictMono.monotone.map_max (a := a) (b := b)).symm

/-- The minimum of two coerced reals is the coerced minimum. -/
theorem min_coe (a b : ℝ) : min (a : EReal) (b : EReal) = ((min a b : ℝ) : EReal) :=
  (EReal.coe_strictMono.monotone.map_min (a := a) (b := b)).symm

/-- The larger of a coerced real and its negation is the coerced absolute value. -/
theorem abs_coe (a : ℝ) : max (a : EReal) (-(a : EReal)) = ((|a| : ℝ) : EReal) := by
  rw [neg_coe, max_coe, abs_eq_max_neg]

/-- The coerced real zero is the extended real zero. -/
theorem zero_coe : (0 : EReal) = ((0 : ℝ) : EReal) := EReal.coe_zero.symm

/-- The coerced real one is the extended real one. -/
theorem one_coe : (1 : EReal) = ((1 : ℝ) : EReal) := EReal.coe_one.symm

/-! ## Exponential, logarithm, quotient -/

/-- The exponential of a coerced real is the coerced real exponential. -/
theorem exp_coe (a : ℝ) : Ideal.exp (a : EReal) = ((Real.exp a : ℝ) : EReal) := rfl

/-- The logarithm of a coerced positive real is the coerced real logarithm. -/
theorem log_coe {a : ℝ} (h : 0 < a) : Ideal.log (a : EReal) = ((Real.log a : ℝ) : EReal) := by
  rw [Ideal.log_coe, if_neg (not_le.mpr h)]

/-- The logarithm of a coerced real that is not positive is the bottom element. -/
theorem log_coe_nonpos {a : ℝ} (h : a ≤ 0) : Ideal.log (a : EReal) = ⊥ := by
  rw [Ideal.log_coe, if_pos h]

/-- The quotient of a coerced real by a coerced nonzero real is the coerced quotient. -/
theorem div_coe (a : ℝ) {b : ℝ} (h : b ≠ 0) : Ideal.div (a : EReal) (b : EReal) = ((a / b : ℝ) : EReal) := by
  rw [Ideal.div_coe h, mul_coe, mul_one_div]

/-! ## Six patterns -/

/-- The all-zero pattern denotes zero. -/
theorem ofBits_zero : Ideal.ofBits .f32 0x00000000#32 = 0 := Ideal.ofBits_zero_f32

/-- The all-zero pattern denotes the coerced real zero. -/
theorem ofBits_zero_coe : Ideal.ofBits .f32 0x00000000#32 = ((0 : ℝ) : EReal) := by
  rw [ofBits_zero, zero_coe]

/-- The pattern of one denotes the coerced real one. -/
theorem ofBits_one_coe : Ideal.ofBits .f32 0x3F800000#32 = ((1 : ℝ) : EReal) := by
  simp [Ideal.ofBits, Ideal.ieee, -EReal.coe_mul]; norm_num

/-- The pattern of one denotes one. -/
theorem ofBits_one : Ideal.ofBits .f32 0x3F800000#32 = 1 := by
  rw [ofBits_one_coe, one_coe]

/-- The pattern of one half denotes the coerced real one half. -/
theorem ofBits_half : Ideal.ofBits .f32 0x3F000000#32 = ((1 / 2 : ℝ) : EReal) := by
  simp [Ideal.ofBits, Ideal.ieee, -EReal.coe_mul]; norm_num

/-- The pattern of 4096 denotes the coerced real 4096. -/
theorem ofBits_4096 : Ideal.ofBits .f32 0x45800000#32 = ((4096 : ℝ) : EReal) := by
  simp [Ideal.ofBits, Ideal.ieee, -EReal.coe_mul]; norm_num

/-- The pattern of 32 denotes the coerced real 32. -/
theorem ofBits_32 : Ideal.ofBits .f32 0x42000000#32 = ((32 : ℝ) : EReal) := by
  simp [Ideal.ofBits, Ideal.ieee, -EReal.coe_mul]; norm_num

/-- The pattern of minus infinity denotes the bottom element. -/
theorem ofBits_neg_inf : Ideal.ofBits .f32 0xFF800000#32 = ⊥ := by
  simp [Ideal.ofBits, Ideal.ieee]

/-! ## Conversions of words -/

/-- A one-bit word is zero or one. -/
theorem bit_cases (b : BitVec 1) : b = 0#1 ∨ b = 1#1 := by
  have h := b.isLt
  rcases (by omega : b.toNat = 0 ∨ b.toNat = 1) with h0 | h1
  · left; exact BitVec.eq_of_toNat_eq (by simpa using h0)
  · right; exact BitVec.eq_of_toNat_eq (by simpa using h1)

/-- The signed conversion of a word is the coerced real of its signed value. -/
theorem sitofp_def {w : Nat} (b : BitVec w) : FloatOps.sitofp (F := Ideal) φ b = (((b.toInt : ℤ) : ℝ) : EReal) := rfl

/-- The unsigned conversion of a word is the coerced real of its unsigned value. -/
theorem uitofp_def {w : Nat} (b : BitVec w) : FloatOps.uitofp (F := Ideal) φ b = (((b.toNat : ℕ) : ℝ) : EReal) := rfl

/-- The signed conversion of a word whose signed value is `n` is the coerced real `n`. -/
theorem sitofp_of_toInt {w : Nat} (b : BitVec w) (n : ℤ) (h : b.toInt = n) :
    FloatOps.sitofp (F := Ideal) φ b = ((n : ℝ) : EReal) := by
  rw [sitofp_def, h]

/-- The unsigned conversion of the one-bit word one is the coerced real one. -/
theorem uitofp_bit_one : FloatOps.uitofp (F := Ideal) φ (1#1) = ((1 : ℝ) : EReal) := by
  rw [uitofp_def]; norm_num

/-- The unsigned conversion of the one-bit word zero is the coerced real zero. -/
theorem uitofp_bit_zero : FloatOps.uitofp (F := Ideal) φ (0#1) = ((0 : ℝ) : EReal) := by
  rw [uitofp_def]; norm_num

/-- The unsigned conversion of a one-bit word is one or zero as the word is one or not. -/
theorem uitofp_bit (b : BitVec 1) :
    FloatOps.uitofp (F := Ideal) φ b = ((if b = 1#1 then (1 : ℝ) else 0 : ℝ) : EReal) := by
  rcases bit_cases b with rfl | rfl
  · rw [uitofp_bit_zero, if_neg (by decide)]
  · rw [uitofp_bit_one, if_pos rfl]

/-- The signed conversion of the one-bit word one, zero-extended to 32 bits, is the coerced real one. -/
theorem sitofp_extui_bit_one : FloatOps.sitofp (F := Ideal) φ ((1#1 : BitVec 1).setWidth 32) = ((1 : ℝ) : EReal) := by
  rw [sitofp_of_toInt _ 1 (by decide)]; norm_num

/-- The signed conversion of the one-bit word zero, zero-extended to 32 bits, is the coerced real zero. -/
theorem sitofp_extui_bit_zero : FloatOps.sitofp (F := Ideal) φ ((0#1 : BitVec 1).setWidth 32) = ((0 : ℝ) : EReal) := by
  rw [sitofp_of_toInt _ 0 (by decide)]; norm_num

/-- The signed conversion of a zero-extended one-bit word is one or zero as the word is one or not. -/
theorem sitofp_extui_bit (b : BitVec 1) :
    FloatOps.sitofp (F := Ideal) φ (b.setWidth 32) = ((if b = 1#1 then (1 : ℝ) else 0 : ℝ) : EReal) := by
  rcases bit_cases b with rfl | rfl
  · rw [sitofp_extui_bit_zero, if_neg (by decide)]
  · rw [sitofp_extui_bit_one, if_pos rfl]

/-! ## Comparison -/

/-- The strict comparison of two coerced reals is the one-bit word one exactly when the first is below the second. -/
theorem cmp_olt_coe (a b : ℝ) : Ideal.cmp .olt (a : EReal) (b : EReal) = if a < b then 1#1 else 0#1 := by
  by_cases h : a < b
  · simp [Ideal.cmp, h]
  · simp [Ideal.cmp, h]

/-- A choice by the strict comparison of two coerced reals is the choice by the comparison of the reals. -/
theorem select_cmp_olt_coe {α : Type} (a b : ℝ) (x y : α) :
    Scalar.select (Ideal.cmp .olt (a : EReal) (b : EReal)) x y = if a < b then x else y := by
  rw [cmp_olt_coe]
  by_cases h : a < b
  · rw [if_pos h, if_pos h]; exact if_pos rfl
  · rw [if_neg h, if_neg h]; exact if_neg (by decide)

/-! ## Finite sums -/

/-- A finite sum of coerced reals is the coerced sum. -/
theorem sum_coe {ι : Type*} (s : Finset ι) (f : ι → ℝ) :
    ∑ i ∈ s, ((f i : ℝ) : EReal) = ((∑ i ∈ s, f i : ℝ) : EReal) := by
  classical
  refine Finset.induction_on s (by simp) ?_
  intro i s hi ih
  rw [Finset.sum_insert hi, Finset.sum_insert hi, ih, EReal.coe_add]

/-- A sum over a finite type of coerced reals is the coerced sum. -/
theorem sum_univ_coe {ι : Type*} [Fintype ι] (f : ι → ℝ) :
    ∑ i, ((f i : ℝ) : EReal) = ((∑ i, f i : ℝ) : EReal) := sum_coe Finset.univ f

/-- A finite sum of extended reals, each a coerced real, is the coerced sum of the reals. -/
theorem sum_of_eq {ι : Type*} (s : Finset ι) (g : ι → EReal) (f : ι → ℝ) (hg : ∀ i ∈ s, g i = ((f i : ℝ) : EReal)) :
    ∑ i ∈ s, g i = ((∑ i ∈ s, f i : ℝ) : EReal) := by
  rw [Finset.sum_congr rfl hg, sum_coe]

/-! ## Finite maxima from the bottom element -/

/-- The maximum of finitely many coerced reals over a nonempty set, folded from the bottom element, is the
coerced maximum of the reals. -/
theorem fold_max_bot_coe {ι : Type*} (s : Finset ι) (H : s.Nonempty) (f : ι → ℝ) :
    s.fold max (⊥ : EReal) (fun i => ((f i : ℝ) : EReal)) = ((s.sup' H f : ℝ) : EReal) := by
  have h1 : s.fold max (⊥ : EReal) (fun i => ((f i : ℝ) : EReal)) = s.sup (fun i => ((f i : ℝ) : EReal)) := rfl
  rw [h1, ← Finset.sup'_eq_sup H]
  exact (Finset.comp_sup'_eq_sup'_comp H (fun r : ℝ => (r : EReal)) (fun x y => (max_coe x y).symm)).symm

/-- The same for extended reals each known to be a coerced real. -/
theorem fold_max_bot_of_eq {ι : Type*} (s : Finset ι) (H : s.Nonempty) (g : ι → EReal) (f : ι → ℝ)
    (hg : ∀ i, g i = ((f i : ℝ) : EReal)) :
    s.fold max (⊥ : EReal) g = ((s.sup' H f : ℝ) : EReal) := by
  have : g = fun i => ((f i : ℝ) : EReal) := funext hg
  rw [this, fold_max_bot_coe]

/-- The same with the float maximum as the folded operation. -/
theorem fold_maximumf_bot_of_eq {ι : Type*} (s : Finset ι) (H : s.Nonempty) (g : ι → EReal) (f : ι → ℝ)
    (hg : ∀ i, g i = ((f i : ℝ) : EReal)) :
    s.fold (FloatOps.maximumf (F := Ideal) (φ := φ)) (⊥ : EReal) g = ((s.sup' H f : ℝ) : EReal) :=
  fold_max_bot_of_eq s H g f hg

end Cert.LibIdealReal

end
-- ==== Proof.Rows.lean ====
/-
  The network's value, row by row, over the extended reals.

  One layer takes a node's own feature row `x` and the mean `nb` of its neighbours' rows and returns, per output
  feature `j`, a gated activation: the logistic function of one affine pair, `σ(x · Wl[j] + nb · Wr[j])`, times the
  indicator that a second affine pair reaches the threshold one, `[x · Wlt[j] + nb · Wrt[j] ≥ 1]`.
  A seed node `n` has five neighbours (rows `5 n + s` of the second table) and each of those has two (rows
  `2 (5 n + s) + t` of the third table). The result row of `n` is the second layer applied to the first layer's
  row of `n` itself and to the mean of the first layer's rows of its five neighbours.

  Everything here is stated over plain functions of literal finite index types, so that a program's arrays, whole or
  block by block, are fed to it through their rows.
-/
import Idealize.ShloMosaic.PureOps.Ideal
import Idealize.ShloMosaic.PureOps.Ideal.Laws
import Idealize.ShloMosaic.Lib.ValueIdx
import proofs.«111404_j26465588478206_1_alg».proof.Proof.LibIdealReal

noncomputable section

namespace Cert.Rows

open Idealize.ShloMosaic Idealize.ShloMosaic.ValueIdx
open scoped BigOperators

/-- The word of `1.0`, of `5.0` and of `2.0`, read as extended reals. -/
abbrev one : EReal := Ideal.ofBits .f32 0x3F800000#32
abbrev five : EReal := Ideal.ofBits .f32 0x40A00000#32
abbrev two : EReal := Ideal.ofBits .f32 0x40000000#32

/-- The logistic function spelt as the quotient `1 / (1 + e^(-x))`. -/
def squash (x : EReal) : EReal := Ideal.div one (one + Ideal.exp (-x))

/-- One where `v` reaches the threshold one, zero elsewhere. -/
def fire (v : EReal) : EReal := FloatOps.uitofp (F := Ideal) .f32 (Ideal.cmp .oge v one)

/-- An affine pair: the own row against row `j` of `Wa` plus the neighbour mean against row `j` of `Wb`. -/
def lin {J : Nat} (x nb : Fin 128 → EReal) (Wa Wb : Fin J → Fin 128 → EReal) (j : Fin J) : EReal :=
  (∑ d : Fin 128, x d * Wa j d) + ∑ d : Fin 128, nb d * Wb j d

/-- One layer at output feature `j`: the logistic activation gated by the threshold indicator. -/
def gate {J : Nat} (x nb : Fin 128 → EReal) (Wl Wr Wlt Wrt : Fin J → Fin 128 → EReal) (j : Fin J) : EReal :=
  squash (lin x nb Wl Wr j) * fire (lin x nb Wlt Wrt j)

/-- The mean of five values, as the sum divided by the word of five. -/
def mean5 (f : Fin 5 → EReal) : EReal := Ideal.div (∑ s : Fin 5, f s) five

/-- The mean of two values, as the sum divided by the word of two. -/
def mean2 (f : Fin 2 → EReal) : EReal := Ideal.div (∑ t : Fin 2, f t) two

/-- A seed node's result at output feature `k`, from its own row `a`, its five neighbours' rows `b s` and their two
    neighbours' rows `c s t`: the second layer over the first layer's row of the node and the mean of the first layer's
    rows of its neighbours. -/
def rowOut (a : Fin 128 → EReal) (b : Fin 5 → Fin 128 → EReal) (c : Fin 5 → Fin 2 → Fin 128 → EReal)
    (Wl1 Wr1 Wlt1 Wrt1 : Fin 128 → Fin 128 → EReal) (Wl2 Wr2 Wlt2 Wrt2 : Fin 64 → Fin 128 → EReal) (k : Fin 64) : EReal :=
  gate (gate a (fun d => mean5 fun s => b s d) Wl1 Wr1 Wlt1 Wrt1)
    (fun j => mean5 fun s => gate (b s) (fun d => mean2 fun t => c s t d) Wl1 Wr1 Wlt1 Wrt1 j)
    Wl2 Wr2 Wlt2 Wrt2 k

/-! ## The rows of the whole arrays -/

/-- Neighbour `s` of seed node `n` is row `5 n + s` of the second table. -/
def nbr5 (n : Fin 100000) (s : Fin 5) : Fin 500000 := ⟨n.val * 5 + s.val, by have := n.isLt; have := s.isLt; omega⟩

/-- Neighbour `t` of first-hop node `m` is row `2 m + t` of the third table. -/
def nbr2 (m : Fin 500000) (t : Fin 2) : Fin 1000000 := ⟨m.val * 2 + t.val, by have := m.isLt; have := t.isLt; omega⟩

/-- The result at seed node `n` and output feature `k`, from the three feature tables and the eight weight matrices
    (each weight matrix read at (output feature, input feature)). -/
def outAt (h0 : (⟨2, ![100000, 128]⟩ : Shape).Idx → EReal) (h1 : (⟨2, ![500000, 128]⟩ : Shape).Idx → EReal)
    (h2 : (⟨2, ![1000000, 128]⟩ : Shape).Idx → EReal) (wl1 wr1 wlt1 wrt1 : (⟨2, ![128, 128]⟩ : Shape).Idx → EReal)
    (wl2 wr2 wlt2 wrt2 : (⟨2, ![64, 128]⟩ : Shape).Idx → EReal) (n : Fin 100000) (k : Fin 64) : EReal :=
  rowOut (fun d => h0 (ix2 n d)) (fun s d => h1 (ix2 (nbr5 n s) d)) (fun s t d => h2 (ix2 (nbr2 (nbr5 n s) t) d))
    (fun j d => wl1 (ix2 j d)) (fun j d => wr1 (ix2 j d)) (fun j d => wlt1 (ix2 j d)) (fun j d => wrt1 (ix2 j d))
    (fun j d => wl2 (ix2 j d)) (fun j d => wr2 (ix2 j d)) (fun j d => wlt2 (ix2 j d)) (fun j d => wrt2 (ix2 j d)) k

/-- The whole result array. -/
def out (h0 : (⟨2, ![100000, 128]⟩ : Shape).Idx → EReal) (h1 : (⟨2, ![500000, 128]⟩ : Shape).Idx → EReal)
    (h2 : (⟨2, ![1000000, 128]⟩ : Shape).Idx → EReal) (wl1 wr1 wlt1 wrt1 : (⟨2, ![128, 128]⟩ : Shape).Idx → EReal)
    (wl2 wr2 wlt2 wrt2 : (⟨2, ![64, 128]⟩ : Shape).Idx → EReal) : (⟨2, ![100000, 64]⟩ : Shape).Idx → EReal :=
  fun i => outAt h0 h1 h2 wl1 wr1 wlt1 wrt1 wl2 wr2 wlt2 wrt2 (i 0) (i 1)

theorem out_ix2 (h0 : (⟨2, ![100000, 128]⟩ : Shape).Idx → EReal) (h1 : (⟨2, ![500000, 128]⟩ : Shape).Idx → EReal)
    (h2 : (⟨2, ![1000000, 128]⟩ : Shape).Idx → EReal) (wl1 wr1 wlt1 wrt1 : (⟨2, ![128, 128]⟩ : Shape).Idx → EReal)
    (wl2 wr2 wlt2 wrt2 : (⟨2, ![64, 128]⟩ : Shape).Idx → EReal) (n : Fin 100000) (k : Fin 64) :
    out h0 h1 h2 wl1 wr1 wlt1 wrt1 wl2 wr2 wlt2 wrt2 (ix2 n k) = outAt h0 h1 h2 wl1 wr1 wlt1 wrt1 wl2 wr2 wlt2 wrt2 n k := rfl

/-! ## The two spellings of the activation and of the indicator -/

/-- The logistic function is the quotient `1 / (1 + e^(-x))` with the literal word of one. -/
theorem logistic_eq_squash (x : EReal) : Ideal.logistic x = squash x := by
  unfold squash Ideal.logistic one
  rw [Cert.LibIdealReal.ofBits_one]

/-- A one-bit word widened to 32 bits and converted as a signed integer is the word converted as an unsigned one:
    both are one at the word one and zero at the word zero. -/
theorem sitofp_extui_eq_uitofp (b : BitVec 1) :
    FloatOps.sitofp (F := Ideal) .f32 (b.setWidth 32) = FloatOps.uitofp (F := Ideal) .f32 b := by
  rw [Cert.LibIdealReal.sitofp_extui_bit, Cert.LibIdealReal.uitofp_bit]

end Cert.Rows

end
-- ==== Proof.LibPlainDot.lean ====
/-
  A matrix product contracted over ONE axis, read at an index.

  For an `A × K` left operand and a `K × B` right operand whose dimension numbers contract the left operand's
  second axis against the right operand's first (no batch axes), the contraction index has one coordinate
  `k : Fin K`, the left operand is read at `(p, k)` and the right one at `(k, q)`. So the sum over the contraction
  index that the product's value is stated with is the textbook `∑ k, f (p, k) · g (k, q)`, whatever the sizes.
  `eq_plain` identifies any record with these dimension numbers with the library's `DotDims.plain`, for which the
  two operand indices compute.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

/-- The contraction shape has one axis … -/
theorem plain_rank : (DotDims.plain A K B).contr.rank = 1 := rfl
/-- … of extent `K`. -/
theorem plain_size : (DotDims.plain A K B).contr.size ⟨0, by rw [plain_rank]; exact Nat.one_pos⟩ = K := rfl

/-- At result index `(p, q)` and contraction coordinate `k` the left operand is read at `(p, k)`. -/
theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

/-- At result index `(p, q)` and contraction coordinate `k` the right operand is read at `(k, q)`. -/
theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A block product into the zero accumulator, at `(p, q)`: `∑ k, lhs (p, k) · rhs (k, q)`. -/
theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-- The host's product at `(p, q)`, whatever its schedule key: the same sum. -/
theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.LibLeadingAxes.lean ====
/-
  Shape casts that merge or split the two LEADING axes, read at an index.

  A row-major array of extents `a × b × c` and one of extents `n × c` with `n = a · b` hold the same entries in
  the same order: entry `(i, j, k)` of the first is entry `(i · b + j, k)` of the second. The same with one more
  trailing axis: `(i, j, k, l)` of an `a × b × c × d` array is `(i · b + j, k, l)` of the `n × c × d` one. Each
  statement takes the merged row `r` with the equation `r = i · b + j`, so it serves in both directions of use
  (from a pair to its row, or from a row to its quotient and remainder); any sizes and element type.
-/
import Idealize.ShloMosaic.Lib.ValueIdx
import Idealize.ShloMosaic.Lib.Pipeline.Value

noncomputable section

namespace Cert.LibLeadingAxes

open Idealize.ShloMosaic Idealize.ShloMosaic.ValueIdx

variable {α : Type} {a b c d n : Nat}

/-- `[a, b, c]` cast to `[n, c]`: entry `(r, k)` with `r = i · b + j` is the operand's `(i, j, k)`. -/
theorem merge3_apply (x : (⟨3, ![a, b, c]⟩ : Shape).Idx → α) (h : (⟨3, ![a, b, c]⟩ : Shape).ShapeCasts ⟨2, ![n, c]⟩)
    (i : Fin a) (j : Fin b) (k : Fin c) (r : Fin n) (hr : r.val = i.val * b + j.val) :
    shapeCast ⟨2, ![n, c]⟩ x h (ix2 r k) = x (ix3 i j k) :=
  shapeCast_apply x h (ix2 r k) (ix3 i j k) (by
    rw [Shape.rowMajor_val_three, Shape.rowMajor_val_two]
    show (i.val * b + j.val) * c + k.val = r.val * c + k.val
    rw [hr])

/-- `[n, c]` cast to `[a, b, c]`: entry `(i, j, k)` is the operand's `(r, k)` with `r = i · b + j`. -/
theorem split3_apply (y : (⟨2, ![n, c]⟩ : Shape).Idx → α) (h : (⟨2, ![n, c]⟩ : Shape).ShapeCasts ⟨3, ![a, b, c]⟩)
    (i : Fin a) (j : Fin b) (k : Fin c) (r : Fin n) (hr : r.val = i.val * b + j.val) :
    shapeCast ⟨3, ![a, b, c]⟩ y h (ix3 i j k) = y (ix2 r k) :=
  shapeCast_apply y h (ix3 i j k) (ix2 r k) (by
    rw [Shape.rowMajor_val_three, Shape.rowMajor_val_two]
    show r.val * c + k.val = (i.val * b + j.val) * c + k.val
    rw [hr])

/-- `[a, b, c, d]` cast to `[n, c, d]`: entry `(r, k, l)` with `r = i · b + j` is the operand's `(i, j, k, l)`. -/
theorem merge4_apply (x : (⟨4, ![a, b, c, d]⟩ : Shape).Idx → α)
    (h : (⟨4, ![a, b, c, d]⟩ : Shape).ShapeCasts ⟨3, ![n, c, d]⟩)
    (i : Fin a) (j : Fin b) (k : Fin c) (l : Fin d) (r : Fin n) (hr : r.val = i.val * b + j.val) :
    shapeCast ⟨3, ![n, c, d]⟩ x h (ix3 r k l) = x (ix4 i j k l) :=
  shapeCast_apply x h (ix3 r k l) (ix4 i j k l) (by
    rw [Shape.rowMajor_val_four, Shape.rowMajor_val_three]
    show ((i.val * b + j.val) * c + k.val) * d + l.val = (r.val * c + k.val) * d + l.val
    rw [hr])

/-- `[n, c, d]` cast to `[a, b, c, d]`: entry `(i, j, k, l)` is the operand's `(r, k, l)` with `r = i · b + j`. -/
theorem split4_apply (y : (⟨3, ![n, c, d]⟩ : Shape).Idx → α)
    (h : (⟨3, ![n, c, d]⟩ : Shape).ShapeCasts ⟨4, ![a, b, c, d]⟩)
    (i : Fin a) (j : Fin b) (k : Fin c) (l : Fin d) (r : Fin n) (hr : r.val = i.val * b + j.val) :
    shapeCast ⟨4, ![a, b, c, d]⟩ y h (ix4 i j k l) = y (ix3 r k l) :=
  shapeCast_apply y h (ix4 i j k l) (ix3 r k l) (by
    rw [Shape.rowMajor_val_four, Shape.rowMajor_val_three]
    show (r.val * c + k.val) * d + l.val = ((i.val * b + j.val) * c + k.val) * d + l.val
    rw [hr])

end Cert.LibLeadingAxes

end
-- ==== Proof.BodyRows.lean ====
/-
  What one grid step of the kernel stores, read at an index, at the ideal values.

  A step holds a block of 1000 seed rows, the 5000 rows of their neighbours and the 10000 rows of the neighbours'
  neighbours, with the eight weight matrices already transposed (read at (input feature, output feature)). Row `r`
  of the stored block at output feature `k` is `Rows.rowOut` of row `r` of the first block, rows `5 r + s` of the
  second and rows `2 (5 r + s) + t` of the third: each product into a zero accumulator is the plain sum over the
  contracted feature, each reduction over the middle axis of a block viewed `[rows, fan-out, 128]` is the sum over
  the fan-out, the logistic operation is the quotient `1 / (1 + e^(-x))`, and a comparison bit widened and converted
  as a signed integer is the bit converted as an unsigned one.
-/
import proofs.«111404_j26465588478206_1_alg».proof.Proof.Gen.KernelIdeal.Skeleton
import proofs.«111404_j26465588478206_1_alg».proof.Proof.Rows
import proofs.«111404_j26465588478206_1_alg».proof.Proof.LibPlainDot
import proofs.«111404_j26465588478206_1_alg».proof.Proof.LibLeadingAxes
import Idealize.ShloMosaic.Lib.Pipeline.Value
import Idealize.ShloMosaic.Lib.ValueIdx
import Idealize.ShloMosaic.PureOps.Ideal.Laws

noncomputable section
namespace Cert.BodyRows
open Idealize.ShloMosaic Idealize.ShloMosaic.ValueIdx Cert.KernelIdeal Cert.KernelIdeal.Gen Cert.Rows
open scoped BigOperators

/-- Inside a step's blocks, neighbour `s` of row `r` is row `5 r + s` of the second block. -/
def blk5 (r : Fin 1000) (s : Fin 5) : Fin 5000 := ⟨r.val * 5 + s.val, by have := r.isLt; have := s.isLt; omega⟩
/-- Inside a step's blocks, neighbour `t` of row `m` of the second block is row `2 m + t` of the third. -/
def blk2 (m : Fin 5000) (t : Fin 2) : Fin 10000 := ⟨m.val * 2 + t.val, by have := m.isLt; have := t.isLt; omega⟩

section Generic
variable {A J : Nat}

/-- Two products of `A` rows against `[128, J]` matrices, each into a zero accumulator, added: at `(p, q)` the affine
    pair of row `p` of the two left operands against column `q` of the two matrices. -/
theorem lin_at (d : DotDims ⟨2, ![A, 128]⟩ ⟨2, ![128, J]⟩ ⟨2, ![A, J]⟩)
    (hlc : d.lhsContracting = [1]) (hrc : d.rhsContracting = [0]) (hln : d.lhsNonContracting = [0])
    (hrn : d.rhsNonContracting = [1]) (hlb : d.lhsBatch = []) (hrb : d.rhsBatch = [])
    (x nb : FVec Ideal ⟨2, ![A, 128]⟩ .f32) (wa wb : FVec Ideal ⟨2, ![128, J]⟩ .f32) (p : Fin A) (q : Fin J) :
    addf (matmul d none x wa (constant ⟨2, ![A, J]⟩ .f32 0x00000000#32)) (matmul d none nb wb (constant ⟨2, ![A, J]⟩ .f32 0x00000000#32)) (ix2 p q)
      = lin (fun k => x (ix2 p k)) (fun k => nb (ix2 p k)) (fun q k => wa (ix2 k q)) (fun q k => wb (ix2 k q)) q := by
  show FloatOps.matmul d none x wa (constant ⟨2, ![A, J]⟩ .f32 0x00000000#32) (ix2 p q)
      + FloatOps.matmul d none nb wb (constant ⟨2, ![A, J]⟩ .f32 0x00000000#32) (ix2 p q) = _
  rw [Cert.LibPlainDot.matmul_zero_apply d hlc hrc hln hrn hlb hrb, Cert.LibPlainDot.matmul_zero_apply d hlc hrc hln hrn hlb hrb]
  rfl

/-- One layer as the body spells it over a block of `A` rows (logistic of one affine pair, times the converted
    comparison of the other against one), at `(p, q)`: `Rows.gate` of row `p`, the matrices read transposed. -/
theorem gate_at (d : DotDims ⟨2, ![A, 128]⟩ ⟨2, ![128, J]⟩ ⟨2, ![A, J]⟩)
    (hlc : d.lhsContracting = [1]) (hrc : d.rhsContracting = [0]) (hln : d.lhsNonContracting = [0])
    (hrn : d.rhsNonContracting = [1]) (hlb : d.lhsBatch = []) (hrb : d.rhsBatch = [])
    (x nb : FVec Ideal ⟨2, ![A, 128]⟩ .f32) (wl wr wlt wrt : FVec Ideal ⟨2, ![128, J]⟩ .f32) (h : 1 < 32) (p : Fin A) (q : Fin J) :
    mulf (logistic (addf (matmul d none x wl (constant ⟨2, ![A, J]⟩ .f32 0x00000000#32)) (matmul d none nb wr (constant ⟨2, ![A, J]⟩ .f32 0x00000000#32))))
        (sitofp .f32 (extui 32 (cmpf .oge (addf (matmul d none x wlt (constant ⟨2, ![A, J]⟩ .f32 0x00000000#32)) (matmul d none nb wrt (constant ⟨2, ![A, J]⟩ .f32 0x00000000#32)))
          (broadcast ⟨2, ![A, J]⟩ (Scalar.ofBits .f32 0x3F800000#32))) h)) (ix2 p q)
      = gate (fun k => x (ix2 p k)) (fun k => nb (ix2 p k)) (fun q k => wl (ix2 k q)) (fun q k => wr (ix2 k q))
          (fun q k => wlt (ix2 k q)) (fun q k => wrt (ix2 k q)) q := by
  show Ideal.logistic (addf (matmul d none x wl (constant ⟨2, ![A, J]⟩ .f32 0x00000000#32)) (matmul d none nb wr (constant ⟨2, ![A, J]⟩ .f32 0x00000000#32)) (ix2 p q))
      * FloatOps.sitofp (F := Ideal) .f32 ((Ideal.cmp .oge (addf (matmul d none x wlt (constant ⟨2, ![A, J]⟩ .f32 0x00000000#32)) (matmul d none nb wrt (constant ⟨2, ![A, J]⟩ .f32 0x00000000#32)) (ix2 p q)) one).setWidth 32) = _
  rw [lin_at d hlc hrc hln hrn hlb hrb, lin_at d hlc hrc hln hrn hlb hrb, logistic_eq_squash, sitofp_extui_eq_uitofp]
  rfl

end Generic

/-- The sum over the middle axis of a `[1000, 5, 128]` block at `(r, d)`: the five entries `(r, s, d)`. -/
theorem sum5_at (v : FVec Ideal S1000x5x128 .f32) (hφ : FKind.Formats .f32)
    (hacc : (0x00000000#32 : BitVec 32) = FKind.add.neutral .f32 hφ) (r : Fin 1000) (d : Fin 128) :
    multiReduction .add [1] S1000x128 v 0x00000000#32 reduces_S1000x5x128_S1000x128 hφ hacc (ix2 r d)
      = ∑ s : Fin 5, v (ix3 r s d) := by
  refine (Ideal.multiReduction_add_single v 0x00000000#32 reduces_S1000x5x128_S1000x128 hφ hacc (ix2 r d)).trans ?_
  refine Finset.sum_congr rfl fun s _ => congrArg v ?_
  funext a
  match a with
  | ⟨0, _⟩ => rfl
  | ⟨1, _⟩ => rfl
  | ⟨2, _⟩ => rfl

/-- The sum over the middle axis of a `[5000, 2, 128]` block at `(m, d)`: the two entries `(m, t, d)`. -/
theorem sum2_at (v : FVec Ideal S5000x2x128 .f32) (hφ : FKind.Formats .f32)
    (hacc : (0x00000000#32 : BitVec 32) = FKind.add.neutral .f32 hφ) (m : Fin 5000) (d : Fin 128) :
    multiReduction .add [1] S5000x128 v 0x00000000#32 reduces_S5000x2x128_S5000x128 hφ hacc (ix2 m d)
      = ∑ t : Fin 2, v (ix3 m t d) := by
  refine (Ideal.multiReduction_add_single v 0x00000000#32 reduces_S5000x2x128_S5000x128 hφ hacc (ix2 m d)).trans ?_
  refine Finset.sum_congr rfl fun s _ => congrArg v ?_
  funext a
  match a with
  | ⟨0, _⟩ => rfl
  | ⟨1, _⟩ => rfl
  | ⟨2, _⟩ => rfl

/-- The mean over each group of five consecutive rows of a 5000-row block, as the body spells it. -/
def avg5 (y : FVec Ideal S5000x128 .f32) : FVec Ideal S1000x128 .f32 :=
  divf (multiReduction .add [1] S1000x128 (shapeCast S1000x5x128 y shapeCasts_S5000x128_S1000x5x128) 0x00000000#32 reduces_S1000x5x128_S1000x128 (.inl rfl) rfl)
    (broadcast S1000x128 (Scalar.ofBits .f32 0x40A00000#32))

/-- The mean over each pair of consecutive rows of a 10000-row block, as the body spells it. -/
def avg2 (y : FVec Ideal S10000x128 .f32) : FVec Ideal S5000x128 .f32 :=
  divf (multiReduction .add [1] S5000x128 (shapeCast S5000x2x128 y shapeCasts_S10000x128_S5000x2x128) 0x00000000#32 reduces_S5000x2x128_S5000x128 (.inl rfl) rfl)
    (broadcast S5000x128 (Scalar.ofBits .f32 0x40000000#32))

/-- Entry `(r, d)` of the group means: the mean of rows `5 r + s` at feature `d`. -/
theorem avg5_at (y : FVec Ideal S5000x128 .f32) (r : Fin 1000) (d : Fin 128) :
    avg5 y (ix2 r d) = mean5 fun s => y (ix2 (blk5 r s) d) := by
  unfold avg5 mean5
  show Ideal.div _ _ = _
  refine congrArg₂ Ideal.div ?_ rfl
  refine (sum5_at _ _ _ r d).trans ?_
  refine Finset.sum_congr rfl fun s _ => ?_
  exact Cert.LibLeadingAxes.split3_apply y shapeCasts_S5000x128_S1000x5x128 r s d (blk5 r s) rfl

/-- Entry `(m, d)` of the pair means: the mean of rows `2 m + t` at feature `d`. -/
theorem avg2_at (y : FVec Ideal S10000x128 .f32) (m : Fin 5000) (d : Fin 128) :
    avg2 y (ix2 m d) = mean2 fun t => y (ix2 (blk2 m t) d) := by
  unfold avg2 mean2
  show Ideal.div _ _ = _
  refine congrArg₂ Ideal.div ?_ rfl
  refine (sum2_at _ _ _ m d).trans ?_
  refine Finset.sum_congr rfl fun t _ => ?_
  exact Cert.LibLeadingAxes.split3_apply y shapeCasts_S10000x128_S5000x2x128 m t d (blk2 m t) rfl

/-- The body's neighbour mean of the seed rows is the group mean of the second block. -/
theorem pay10_eq (v1 : Vec Ideal S5000x128 .f32) : k0_pay10 (F := Ideal) v1 = avg5 v1 := rfl

/-- The first layer over the 5000 neighbour rows, as the body spells it. -/
def layerB (x nb : FVec Ideal S5000x128 .f32) (wl wr wlt wrt : FVec Ideal S128x128 .f32) : FVec Ideal S5000x128 .f32 :=
  mulf (logistic (addf (matmul dot_S5000x128_S128x128_S5000x128_1_0_0_1_n_n none x wl (constant S5000x128 .f32 0x00000000#32))
      (matmul dot_S5000x128_S128x128_S5000x128_1_0_0_1_n_n none nb wr (constant S5000x128 .f32 0x00000000#32))))
    (sitofp .f32 (extui 32 (cmpf .oge (addf (matmul dot_S5000x128_S128x128_S5000x128_1_0_0_1_n_n none x wlt (constant S5000x128 .f32 0x00000000#32))
      (matmul dot_S5000x128_S128x128_S5000x128_1_0_0_1_n_n none nb wrt (constant S5000x128 .f32 0x00000000#32)))
      (broadcast S5000x128 (Scalar.ofBits .f32 0x3F800000#32))) natLt_1_32))

/-- The first layer over the 1000 seed rows, as the body spells it. -/
def layerA (x nb : FVec Ideal S1000x128 .f32) (wl wr wlt wrt : FVec Ideal S128x128 .f32) : FVec Ideal S1000x128 .f32 :=
  mulf (logistic (addf (matmul dot_S1000x128_S128x128_S1000x128_1_0_0_1_n_n none x wl (constant S1000x128 .f32 0x00000000#32))
      (matmul dot_S1000x128_S128x128_S1000x128_1_0_0_1_n_n none nb wr (constant S1000x128 .f32 0x00000000#32))))
    (sitofp .f32 (extui 32 (cmpf .oge (addf (matmul dot_S1000x128_S128x128_S1000x128_1_0_0_1_n_n none x wlt (constant S1000x128 .f32 0x00000000#32))
      (matmul dot_S1000x128_S128x128_S1000x128_1_0_0_1_n_n none nb wrt (constant S1000x128 .f32 0x00000000#32)))
      (broadcast S1000x128 (Scalar.ofBits .f32 0x3F800000#32))) natLt_1_32))

/-- The second layer over the 1000 seed rows, as the body spells it. -/
def layerOut (x nb : FVec Ideal S1000x128 .f32) (wl wr wlt wrt : FVec Ideal S128x64 .f32) : FVec Ideal S1000x64 .f32 :=
  mulf (logistic (addf (matmul dot_S1000x128_S128x64_S1000x64_1_0_0_1_n_n none x wl (constant S1000x64 .f32 0x00000000#32))
      (matmul dot_S1000x128_S128x64_S1000x64_1_0_0_1_n_n none nb wr (constant S1000x64 .f32 0x00000000#32))))
    (sitofp .f32 (extui 32 (cmpf .oge (addf (matmul dot_S1000x128_S128x64_S1000x64_1_0_0_1_n_n none x wlt (constant S1000x64 .f32 0x00000000#32))
      (matmul dot_S1000x128_S128x64_S1000x64_1_0_0_1_n_n none nb wrt (constant S1000x64 .f32 0x00000000#32)))
      (broadcast S1000x64 (Scalar.ofBits .f32 0x3F800000#32))) natLt_1_32))

theorem layerB_at (x nb : FVec Ideal S5000x128 .f32) (wl wr wlt wrt : FVec Ideal S128x128 .f32) (m : Fin 5000) (j : Fin 128) :
    layerB x nb wl wr wlt wrt (ix2 m j) = gate (fun d => x (ix2 m d)) (fun d => nb (ix2 m d)) (fun j d => wl (ix2 d j)) (fun j d => wr (ix2 d j))
      (fun j d => wlt (ix2 d j)) (fun j d => wrt (ix2 d j)) j :=
  gate_at dot_S5000x128_S128x128_S5000x128_1_0_0_1_n_n rfl rfl rfl rfl rfl rfl x nb wl wr wlt wrt natLt_1_32 m j

theorem layerA_at (x nb : FVec Ideal S1000x128 .f32) (wl wr wlt wrt : FVec Ideal S128x128 .f32) (r : Fin 1000) (j : Fin 128) :
    layerA x nb wl wr wlt wrt (ix2 r j) = gate (fun d => x (ix2 r d)) (fun d => nb (ix2 r d)) (fun j d => wl (ix2 d j)) (fun j d => wr (ix2 d j))
      (fun j d => wlt (ix2 d j)) (fun j d => wrt (ix2 d j)) j :=
  gate_at dot_S1000x128_S128x128_S1000x128_1_0_0_1_n_n rfl rfl rfl rfl rfl rfl x nb wl wr wlt wrt natLt_1_32 r j

theorem layerOut_at (x nb : FVec Ideal S1000x128 .f32) (wl wr wlt wrt : FVec Ideal S128x64 .f32) (r : Fin 1000) (k : Fin 64) :
    layerOut x nb wl wr wlt wrt (ix2 r k) = gate (fun d => x (ix2 r d)) (fun d => nb (ix2 r d)) (fun j d => wl (ix2 d j)) (fun j d => wr (ix2 d j))
      (fun j d => wlt (ix2 d j)) (fun j d => wrt (ix2 d j)) k :=
  gate_at dot_S1000x128_S128x64_S1000x64_1_0_0_1_n_n rfl rfl rfl rfl rfl rfl x nb wl wr wlt wrt natLt_1_32 r k

/-- The stored value is the second layer over the first layer of the seed rows and the group mean of the first
    layer of the neighbour rows: the body's own sequence of operations, regrouped. -/
theorem pay1_eq (v1 : Vec Ideal S5000x128 .f32) (v2 : Vec Ideal S10000x128 .f32) (v4 v6 v8 v10 : FVec Ideal S128x128 .f32)
    (v12 v14 v16 v18 : FVec Ideal S128x64 .f32) (x0 : Vec Ideal S1000x128 .f32) (v3 v5 v7 v9 : Vec Ideal S128x128 .f32) :
    k0_pay1 (F := Ideal) v1 v2 v4 v6 v8 v10 v12 v14 v16 v18 (k0_pay11 x0 v1 v7 v9) (k0_pay12 x0 v1 v3 v5) (Scalar.ofBits .f32 0x3F800000#32)
      = layerOut (layerA x0 (avg5 v1) (k0_pay2 v3) (k0_pay3 v5) (k0_pay4 v7) (k0_pay5 v9)) (avg5 (layerB v1 (avg2 v2) v4 v6 v8 v10)) v12 v14 v16 v18 := rfl

/-- A weight block cast to its own shape is itself. -/
theorem pay2_eq (v : Vec Ideal S128x128 .f32) : k0_pay2 (F := Ideal) v = v := shapeCast_self v _
theorem pay3_eq (v : Vec Ideal S128x128 .f32) : k0_pay3 (F := Ideal) v = v := shapeCast_self v _
theorem pay4_eq (v : Vec Ideal S128x128 .f32) : k0_pay4 (F := Ideal) v = v := shapeCast_self v _
theorem pay5_eq (v : Vec Ideal S128x128 .f32) : k0_pay5 (F := Ideal) v = v := shapeCast_self v _
theorem pay6_eq (v : Vec Ideal S128x64 .f32) : k0_pay6 (F := Ideal) v = v := shapeCast_self v _
theorem pay7_eq (v : Vec Ideal S128x64 .f32) : k0_pay7 (F := Ideal) v = v := shapeCast_self v _
theorem pay8_eq (v : Vec Ideal S128x64 .f32) : k0_pay8 (F := Ideal) v = v := shapeCast_self v _
theorem pay9_eq (v : Vec Ideal S128x64 .f32) : k0_pay9 (F := Ideal) v = v := shapeCast_self v _

/-- THE STORED BLOCK AT AN INDEX: row `r`, output feature `k`, is `Rows.rowOut` of the blocks' rows. -/
theorem pay_at (x0 : Vec Ideal S1000x128 .f32) (x1 : Vec Ideal S5000x128 .f32) (x2 : Vec Ideal S10000x128 .f32)
    (x3 x4 x5 x6 : Vec Ideal S128x128 .f32) (x7 x8 x9 x10 : Vec Ideal S128x64 .f32) (r : Fin 1000) (k : Fin 64) :
    k0_pay1 (F := Ideal) x1 x2 (k0_pay2 x3) (k0_pay3 x4) (k0_pay4 x5) (k0_pay5 x6) (k0_pay6 x7) (k0_pay7 x8) (k0_pay8 x9) (k0_pay9 x10)
        (k0_pay11 x0 x1 x5 x6) (k0_pay12 x0 x1 x3 x4) (Scalar.ofBits .f32 0x3F800000#32) (ix2 r k)
      = rowOut (fun d => x0 (ix2 r d)) (fun s d => x1 (ix2 (blk5 r s) d)) (fun s t d => x2 (ix2 (blk2 (blk5 r s) t) d))
          (fun j d => x3 (ix2 d j)) (fun j d => x4 (ix2 d j)) (fun j d => x5 (ix2 d j)) (fun j d => x6 (ix2 d j))
          (fun j d => x7 (ix2 d j)) (fun j d => x8 (ix2 d j)) (fun j d => x9 (ix2 d j)) (fun j d => x10 (ix2 d j)) k := by
  rw [pay1_eq, layerOut_at]
  unfold rowOut
  simp only [layerA_at, avg5_at, layerB_at, avg2_at, pay2_eq, pay3_eq, pay4_eq, pay5_eq, pay6_eq, pay7_eq, pay8_eq, pay9_eq]

end Cert.BodyRows
end
-- ==== Proof.Blocks.lean ====
/-
  From the kernel's grid steps to its whole result array, at the ideal values.

  The grid has 100 steps. Step `t` reads rows `1000 t … 1000 t + 999` of the seed table, rows `5000 t …` of the
  first-hop table and rows `10000 t …` of the second-hop table, and the eight transposed weight matrices whole; it
  writes rows `1000 t …` of the result. Row `r` of a step's blocks is therefore seed `n = 1000 t + r`, and rows
  `5 r + s` and `2 (5 r + s) + t'` of its second and third block are rows `5 n + s` and `2 (5 n + s) + t'` of
  the whole tables: what a step writes back is its block of `Rows.out` of the argument arrays. The steps' blocks
  tile the result (row `i` lies in step `i / 1000`), so the array ends holding `Rows.out` everywhere.
-/
import proofs.«111404_j26465588478206_1_alg».proof.Proof.Gen.KernelIdeal.Value
import proofs.«111404_j26465588478206_1_alg».proof.Proof.BodyRows
import Idealize.ShloMosaic.Lib.Pipeline.Value
import Idealize.ShloMosaic.Lib.ValueIdx
import Idealize.ShloMosaic.Lib.StableHlo.Run

set_option maxRecDepth 16384

noncomputable section
namespace Cert.Blocks
open Cert.KernelIdeal Cert.KernelIdeal.Gen Idealize.ShloMosaic Idealize.ShloMosaic.TcCoe Idealize.SL.Sem Idealize.ShloMosaic.ValueIdx
open Idealize.ShloMosaic.Pipeline (Dat)
open Cert.Rows Cert.BodyRows

variable (m : (ℓ : Loc nD τ sig) → Buf (Elt Ideal) ℓ) (ρ : Dev nD → PrngReg)

/-- The zero offsets, however they are spelt. -/
theorem hz : (![0, 0] : Fin 2 → Nat) = fun _ => 0 := funext fun a => by fin_cases a <;> rfl

/-- The block index of every window at every grid step: the three feature tables and the result move with the
    step along the rows, the weight matrices stay at block zero. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0) :=
  (by decide +kernel : ∀ t : Fin grid0.N, _)

/-- Row `r` of step `t`'s block is seed `1000 t + r`. -/
def seed (t : Fin cfg0.N) (r : Fin 1000) : Fin 100000 := ⟨t.val * 1000 + r.val, by have := t.isLt; have := r.isLt; have : cfg0.N = 100 := N_0; omega⟩

/-- Step `t`'s block of the seed table at `(r, d)` is the table at `(1000 t + r, d)`. -/
theorem blk0_at (c : Dev nD) (t : Fin cfg0.N) (r : Fin 1000) (d : Fin 128) :
    iblk m c 0 t (ix2 r d) = (m ((c : Thread nD τ).loc main_arg0) : S100000x128.Idx → EReal) (ix2 (seed t r) d) := by
  rw [← V_main_arg0 m c]
  show V m c main_arg0 (((cfg0.win 0).blk t).view.emb (ix2 r d)) = V m c main_arg0 (ix2 (seed t r) d)
  obtain ⟨⟨e0, e1⟩, -⟩ := idx_facts t
  refine congrArg _ (funext fun a => Fin.ext ?_)
  match a with
  | ⟨0, _⟩ => show win0_0.index t (0 : Fin 2) * 1000 + 1 * r.val = t.val * 1000 + r.val; omega
  | ⟨1, _⟩ => show win0_0.index t (1 : Fin 2) * 128 + 1 * d.val = d.val; omega

/-- Step `t`'s block of the first-hop table at neighbour `s` of its row `r` is the table at neighbour `s` of seed
    `1000 t + r`. -/
theorem blk1_at (c : Dev nD) (t : Fin cfg0.N) (r : Fin 1000) (s : Fin 5) (d : Fin 128) :
    iblk m c 1 t (ix2 (blk5 r s) d) = (m ((c : Thread nD τ).loc main_arg1) : S500000x128.Idx → EReal) (ix2 (nbr5 (seed t r) s) d) := by
  rw [← V_main_arg1 m c]
  show V m c main_arg1 (((cfg0.win 1).blk t).view.emb (ix2 (blk5 r s) d)) = V m c main_arg1 (ix2 (nbr5 (seed t r) s) d)
  obtain ⟨-, ⟨e0, e1⟩, -⟩ := idx_facts t
  refine congrArg _ (funext fun a => Fin.ext ?_)
  match a with
  | ⟨0, _⟩ => show win0_1.index t (0 : Fin 2) * 5000 + 1 * (r.val * 5 + s.val) = (t.val * 1000 + r.val) * 5 + s.val; omega
  | ⟨1, _⟩ => show win0_1.index t (1 : Fin 2) * 128 + 1 * d.val = d.val; omega

/-- Step `t`'s block of the second-hop table at neighbour `u` of neighbour `s` of its row `r` is the table at that
    neighbour of that neighbour of seed `1000 t + r`. -/
theorem blk2_at (c : Dev nD) (t : Fin cfg0.N) (r : Fin 1000) (s : Fin 5) (u : Fin 2) (d : Fin 128) :
    iblk m c 2 t (ix2 (blk2 (blk5 r s) u) d) = (m ((c : Thread nD τ).loc main_arg2) : S1000000x128.Idx → EReal) (ix2 (nbr2 (nbr5 (seed t r) s) u) d) := by
  rw [← V_main_arg2 m c]
  show V m c main_arg2 (((cfg0.win 2).blk t).view.emb (ix2 (blk2 (blk5 r s) u) d)) = V m c main_arg2 (ix2 (nbr2 (nbr5 (seed t r) s) u) d)
  obtain ⟨-, -, ⟨e0, e1⟩, -⟩ := idx_facts t
  refine congrArg _ (funext fun a => Fin.ext ?_)
  match a with
  | ⟨0, _⟩ => show win0_2.index t (0 : Fin 2) * 10000 + 1 * ((r.val * 5 + s.val) * 2 + u.val) = ((t.val * 1000 + r.val) * 5 + s.val) * 2 + u.val; omega
  | ⟨1, _⟩ => show win0_2.index t (1 : Fin 2) * 128 + 1 * d.val = d.val; omega

/-- The array window 3 stages is the transpose of weight matrix 3, computed before the grid runs. -/
theorem V_main_v0 (c : Dev nD) : (V m c main_v0 : S128x128.Idx → EReal) = transpose S128x128 [1, 0] (m ((c : Thread nD τ).loc main_arg3) : S128x128.Idx → EReal) transposes_S128x128_S128x128_1_0 := by
  dsimp only [V, hostOps0]; after_results

/-- Window 3's block is that whole transpose: at (input feature `d`, output feature `j`) it is the matrix at `(j, d)`. -/
theorem blk3_at (c : Dev nD) (t : Fin cfg0.N) (d : Fin 128) (j : Fin 128) :
    iblk m c 3 t (ix2 d j) = (m ((c : Thread nD τ).loc main_arg3) : S128x128.Idx → EReal) (ix2 j d) := by
  show V m c main_v0 (((cfg0.win 3).blk t).view.emb (ix2 d j)) = _
  obtain ⟨-, -, -, ⟨e0, e1⟩, -⟩ := idx_facts t
  have hemb : ((cfg0.win 3).blk t).view.emb (ix2 d j) = (ix2 d j : S128x128.Idx) := funext fun a => Fin.ext (by
    match a with
    | ⟨0, _⟩ => show win0_3.index t (0 : Fin 2) * 128 + 1 * d.val = d.val; omega
    | ⟨1, _⟩ => show win0_3.index t (1 : Fin 2) * 128 + 1 * j.val = j.val; omega)
  rw [hemb, V_main_v0 m c]
  exact transpose_apply [1, 0] _ transposes_S128x128_S128x128_1_0 (ix2 d j) (ix2 j d) (fun b => match b with
    | ⟨0, _⟩ => rfl
    | ⟨1, _⟩ => rfl)

/-- The array window 4 stages is the transpose of weight matrix 4, computed before the grid runs. -/
theorem V_main_v1 (c : Dev nD) : (V m c main_v1 : S128x128.Idx → EReal) = transpose S128x128 [1, 0] (m ((c : Thread nD τ).loc main_arg4) : S128x128.Idx → EReal) transposes_S128x128_S128x128_1_0 := by
  dsimp only [V, hostOps0]; after_results

/-- Window 4's block is that whole transpose: at (input feature `d`, output feature `j`) it is the matrix at `(j, d)`. -/
theorem blk4_at (c : Dev nD) (t : Fin cfg0.N) (d : Fin 128) (j : Fin 128) :
    iblk m c 4 t (ix2 d j) = (m ((c : Thread nD τ).loc main_arg4) : S128x128.Idx → EReal) (ix2 j d) := by
  show V m c main_v1 (((cfg0.win 4).blk t).view.emb (ix2 d j)) = _
  obtain ⟨-, -, -, -, ⟨e0, e1⟩, -⟩ := idx_facts t
  have hemb : ((cfg0.win 4).blk t).view.emb (ix2 d j) = (ix2 d j : S128x128.Idx) := funext fun a => Fin.ext (by
    match a with
    | ⟨0, _⟩ => show win0_4.index t (0 : Fin 2) * 128 + 1 * d.val = d.val; omega
    | ⟨1, _⟩ => show win0_4.index t (1 : Fin 2) * 128 + 1 * j.val = j.val; omega)
  rw [hemb, V_main_v1 m c]
  exact transpose_apply [1, 0] _ transposes_S128x128_S128x128_1_0 (ix2 d j) (ix2 j d) (fun b => match b with
    | ⟨0, _⟩ => rfl
    | ⟨1, _⟩ => rfl)

/-- The array window 5 stages is the transpose of weight matrix 5, computed before the grid runs. -/
theorem V_main_v2 (c : Dev nD) : (V m c main_v2 : S128x128.Idx → EReal) = transpose S128x128 [1, 0] (m ((c : Thread nD τ).loc main_arg5) : S128x128.Idx → EReal) transposes_S128x128_S128x128_1_0 := by
  dsimp only [V, hostOps0]; after_results

/-- Window 5's block is that whole transpose: at (input feature `d`, output feature `j`) it is the matrix at `(j, d)`. -/
theorem blk5_at (c : Dev nD) (t : Fin cfg0.N) (d : Fin 128) (j : Fin 128) :
    iblk m c 5 t (ix2 d j) = (m ((c : Thread nD τ).loc main_arg5) : S128x128.Idx → EReal) (ix2 j d) := by
  show V m c main_v2 (((cfg0.win 5).blk t).view.emb (ix2 d j)) = _
  obtain ⟨-, -, -, -, -, ⟨e0, e1⟩, -⟩ := idx_facts t
  have hemb : ((cfg0.win 5).blk t).view.emb (ix2 d j) = (ix2 d j : S128x128.Idx) := funext fun a => Fin.ext (by
    match a with
    | ⟨0, _⟩ => show win0_5.index t (0 : Fin 2) * 128 + 1 * d.val = d.val; omega
    | ⟨1, _⟩ => show win0_5.index t (1 : Fin 2) * 128 + 1 * j.val = j.val; omega)
  rw [hemb, V_main_v2 m c]
  exact transpose_apply [1, 0] _ transposes_S128x128_S128x128_1_0 (ix2 d j) (ix2 j d) (fun b => match b with
    | ⟨0, _⟩ => rfl
    | ⟨1, _⟩ => rfl)

/-- The array window 6 stages is the transpose of weight matrix 6, computed before the grid runs. -/
theorem V_main_v3 (c : Dev nD) : (V m c main_v3 : S128x128.Idx → EReal) = transpose S128x128 [1, 0] (m ((c : Thread nD τ).loc main_arg6) : S128x128.Idx → EReal) transposes_S128x128_S128x128_1_0 := by
  dsimp only [V, hostOps0]; after_results

/-- Window 6's block is that whole transpose: at (input feature `d`, output feature `j`) it is the matrix at `(j, d)`. -/
theorem blk6_at (c : Dev nD) (t : Fin cfg0.N) (d : Fin 128) (j : Fin 128) :
    iblk m c 6 t (ix2 d j) = (m ((c : Thread nD τ).loc main_arg6) : S128x128.Idx → EReal) (ix2 j d) := by
  show V m c main_v3 (((cfg0.win 6).blk t).view.emb (ix2 d j)) = _
  obtain ⟨-, -, -, -, -, -, ⟨e0, e1⟩, -⟩ := idx_facts t
  have hemb : ((cfg0.win 6).blk t).view.emb (ix2 d j) = (ix2 d j : S128x128.Idx) := funext fun a => Fin.ext (by
    match a with
    | ⟨0, _⟩ => show win0_6.index t (0 : Fin 2) * 128 + 1 * d.val = d.val; omega
    | ⟨1, _⟩ => show win0_6.index t (1 : Fin 2) * 128 + 1 * j.val = j.val; omega)
  rw [hemb, V_main_v3 m c]
  exact transpose_apply [1, 0] _ transposes_S128x128_S128x128_1_0 (ix2 d j) (ix2 j d) (fun b => match b with
    | ⟨0, _⟩ => rfl
    | ⟨1, _⟩ => rfl)

/-- The array window 7 stages is the transpose of weight matrix 7, computed before the grid runs. -/
theorem V_main_v4 (c : Dev nD) : (V m c main_v4 : S128x64.Idx → EReal) = transpose S128x64 [1, 0] (m ((c : Thread nD τ).loc main_arg7) : S64x128.Idx → EReal) transposes_S64x128_S128x64_1_0 := by
  dsimp only [V, hostOps0]; after_results

/-- Window 7's block is that whole transpose: at (input feature `d`, output feature `j`) it is the matrix at `(j, d)`. -/
theorem blk7_at (c : Dev nD) (t : Fin cfg0.N) (d : Fin 128) (j : Fin 64) :
    iblk m c 7 t (ix2 d j) = (m ((c : Thread nD τ).loc main_arg7) : S64x128.Idx → EReal) (ix2 j d) := by
  show V m c main_v4 (((cfg0.win 7).blk t).view.emb (ix2 d j)) = _
  obtain ⟨-, -, -, -, -, -, -, ⟨e0, e1⟩, -⟩ := idx_facts t
  have hemb : ((cfg0.win 7).blk t).view.emb (ix2 d j) = (ix2 d j : S128x64.Idx) := funext fun a => Fin.ext (by
    match a with
    | ⟨0, _⟩ => show win0_7.index t (0 : Fin 2) * 128 + 1 * d.val = d.val; omega
    | ⟨1, _⟩ => show win0_7.index t (1 : Fin 2) * 64 + 1 * j.val = j.val; omega)
  rw [hemb, V_main_v4 m c]
  exact transpose_apply [1, 0] _ transposes_S64x128_S128x64_1_0 (ix2 d j) (ix2 j d) (fun b => match b with
    | ⟨0, _⟩ => rfl
    | ⟨1, _⟩ => rfl)

/-- The array window 8 stages is the transpose of weight matrix 8, computed before the grid runs. -/
theorem V_main_v5 (c : Dev nD) : (V m c main_v5 : S128x64.Idx → EReal) = transpose S128x64 [1, 0] (m ((c : Thread nD τ).loc main_arg8) : S64x128.Idx → EReal) transposes_S64x128_S128x64_1_0 := by
  dsimp only [V, hostOps0]; after_results

/-- Window 8's block is that whole transpose: at (input feature `d`, output feature `j`) it is the matrix at `(j, d)`. -/
theorem blk8_at (c : Dev nD) (t : Fin cfg0.N) (d : Fin 128) (j : Fin 64) :
    iblk m c 8 t (ix2 d j) = (m ((c : Thread nD τ).loc main_arg8) : S64x128.Idx → EReal) (ix2 j d) := by
  show V m c main_v5 (((cfg0.win 8).blk t).view.emb (ix2 d j)) = _
  obtain ⟨-, -, -, -, -, -, -, -, ⟨e0, e1⟩, -⟩ := idx_facts t
  have hemb : ((cfg0.win 8).blk t).view.emb (ix2 d j) = (ix2 d j : S128x64.Idx) := funext fun a => Fin.ext (by
    match a with
    | ⟨0, _⟩ => show win0_8.index t (0 : Fin 2) * 128 + 1 * d.val = d.val; omega
    | ⟨1, _⟩ => show win0_8.index t (1 : Fin 2) * 64 + 1 * j.val = j.val; omega)
  rw [hemb, V_main_v5 m c]
  exact transpose_apply [1, 0] _ transposes_S64x128_S128x64_1_0 (ix2 d j) (ix2 j d) (fun b => match b with
    | ⟨0, _⟩ => rfl
    | ⟨1, _⟩ => rfl)

/-- The array window 9 stages is the transpose of weight matrix 9, computed before the grid runs. -/
theorem V_main_v6 (c : Dev nD) : (V m c main_v6 : S128x64.Idx → EReal) = transpose S128x64 [1, 0] (m ((c : Thread nD τ).loc main_arg9) : S64x128.Idx → EReal) transposes_S64x128_S128x64_1_0 := by
  dsimp only [V, hostOps0]; after_results

/-- Window 9's block is that whole transpose: at (input feature `d`, output feature `j`) it is the matrix at `(j, d)`. -/
theorem blk9_at (c : Dev nD) (t : Fin cfg0.N) (d : Fin 128) (j : Fin 64) :
    iblk m c 9 t (ix2 d j) = (m ((c : Thread nD τ).loc main_arg9) : S64x128.Idx → EReal) (ix2 j d) := by
  show V m c main_v6 (((cfg0.win 9).blk t).view.emb (ix2 d j)) = _
  obtain ⟨-, -, -, -, -, -, -, -, -, ⟨e0, e1⟩, -⟩ := idx_facts t
  have hemb : ((cfg0.win 9).blk t).view.emb (ix2 d j) = (ix2 d j : S128x64.Idx) := funext fun a => Fin.ext (by
    match a with
    | ⟨0, _⟩ => show win0_9.index t (0 : Fin 2) * 128 + 1 * d.val = d.val; omega
    | ⟨1, _⟩ => show win0_9.index t (1 : Fin 2) * 64 + 1 * j.val = j.val; omega)
  rw [hemb, V_main_v6 m c]
  exact transpose_apply [1, 0] _ transposes_S64x128_S128x64_1_0 (ix2 d j) (ix2 j d) (fun b => match b with
    | ⟨0, _⟩ => rfl
    | ⟨1, _⟩ => rfl)

/-- The array window 10 stages is the transpose of weight matrix 10, computed before the grid runs. -/
theorem V_main_v7 (c : Dev nD) : (V m c main_v7 : S128x64.Idx → EReal) = transpose S128x64 [1, 0] (m ((c : Thread nD τ).loc main_arg10) : S64x128.Idx → EReal) transposes_S64x128_S128x64_1_0 := by
  dsimp only [V, hostOps0]; after_results

/-- Window 10's block is that whole transpose: at (input feature `d`, output feature `j`) it is the matrix at `(j, d)`. -/
theorem blk10_at (c : Dev nD) (t : Fin cfg0.N) (d : Fin 128) (j : Fin 64) :
    iblk m c 10 t (ix2 d j) = (m ((c : Thread nD τ).loc main_arg10) : S64x128.Idx → EReal) (ix2 j d) := by
  show V m c main_v7 (((cfg0.win 10).blk t).view.emb (ix2 d j)) = _
  obtain ⟨-, -, -, -, -, -, -, -, -, -, ⟨e0, e1⟩, -⟩ := idx_facts t
  have hemb : ((cfg0.win 10).blk t).view.emb (ix2 d j) = (ix2 d j : S128x64.Idx) := funext fun a => Fin.ext (by
    match a with
    | ⟨0, _⟩ => show win0_10.index t (0 : Fin 2) * 128 + 1 * d.val = d.val; omega
    | ⟨1, _⟩ => show win0_10.index t (1 : Fin 2) * 64 + 1 * j.val = j.val; omega)
  rw [hemb, V_main_v7 m c]
  exact transpose_apply [1, 0] _ transposes_S64x128_S128x64_1_0 (ix2 d j) (ix2 j d) (fun b => match b with
    | ⟨0, _⟩ => rfl
    | ⟨1, _⟩ => rfl)

/-- The whole result array as the value of the argument arrays. -/
def result (c : Dev nD) : S100000x64.Idx → EReal :=
  Rows.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))

/-- WHAT STEP `t` WRITES BACK is its block of the network's value of the argument arrays. -/
theorem flushed_eq (c : Dev nD) (t : Fin cfg0.N) :
    (dats m 0 c).flushed 11 t = ((cfg0.win 11).blk t).view.read (Elt Ideal) (result m c) := by
  rw [Cert.KernelIdeal.Value.flushed11]
  unfold out0_11
  rw [View.canon_unit_zero hz]
  simp only [View.ld_unit_zero (S := S1000x128) hz, View.ld_unit_zero (S := S5000x128) hz, View.ld_unit_zero (S := S10000x128) hz,
    View.ld_unit_zero (S := S128x128) hz, View.ld_unit_zero (S := S128x64) hz]
  funext j
  obtain ⟨r, k, rfl⟩ : ∃ (r : Fin 1000) (k : Fin 64), j = (ix2 r k : S1000x64.Idx) := ⟨j 0, j 1, eq_ix2 (n0 := 1000) (n1 := 64) j⟩
  refine (pay_at (iblk m c 0 t) (iblk m c 1 t) (iblk m c 2 t) (iblk m c 3 t) (iblk m c 4 t) (iblk m c 5 t) (iblk m c 6 t)
    (iblk m c 7 t) (iblk m c 8 t) (iblk m c 9 t) (iblk m c 10 t) r k).trans ?_
  have hemb : ((cfg0.win 11).blk t).view.emb (ix2 r k) = (ix2 (seed t r) k : S100000x64.Idx) := by
    obtain ⟨-, -, -, -, -, -, -, -, -, -, -, e0, e1⟩ := idx_facts t
    exact funext fun a => Fin.ext (by
      match a with
      | ⟨0, _⟩ => show win0_11.index t (0 : Fin 2) * 1000 + 1 * r.val = t.val * 1000 + r.val; omega
      | ⟨1, _⟩ => show win0_11.index t (1 : Fin 2) * 64 + 1 * k.val = k.val; omega)
  show _ = result m c (((cfg0.win 11).blk t).view.emb (ix2 r k))
  rw [hemb]
  unfold result
  rw [Rows.out_ix2]
  unfold outAt
  simp only [blk0_at, blk1_at, blk2_at, blk3_at, blk4_at, blk5_at, blk6_at, blk7_at, blk8_at, blk9_at, blk10_at]

/-- An index of the result array is in step `t`'s block iff each coordinate is in the block's range on its axis. -/
theorem mem_blk (t : Fin cfg0.N) (i : S100000x64.Idx) :
    i ∈ ((cfg0.win 11).blk t).view.set ↔ ∀ a : Fin 2, win0_11.index t a * S1000x64.size a ≤ (i a).val ∧ (i a).val < win0_11.index t a * S1000x64.size a + S1000x64.size a := by
  show i ∈ ((View.whole main_v8).slice (win0_11.rect t)).set ↔ _
  rw [View.set_slice_whole, Rect.mem_set_unit]
  exact Iff.rfl

/-- Every index of the result array is in the block of the step its row falls in. -/
theorem cover (i : S100000x64.Idx) : ∃ t : Fin cfg0.N, (cfg0.win 11).flush t = true ∧ i ∈ ((cfg0.win 11).blk t).view.set := by
  have hi0 : (i 0).val < 100000 := (i 0).isLt
  have hi1 : (i 1).val < 64 := (i 1).isLt
  have hN : cfg0.N = 100 := N_0
  let t : Fin cfg0.N := ⟨(i 0).val / 1000, by omega⟩
  obtain ⟨-, -, -, -, -, -, -, -, -, -, -, e0, e1⟩ := idx_facts t
  have ht : t.val = (i 0).val / 1000 := rfl
  refine ⟨t, flush0_11 t, ?_⟩
  rw [mem_blk]
  intro a
  match a with
  | ⟨0, _⟩ => show win0_11.index t (0 : Fin 2) * 1000 ≤ (i 0).val ∧ (i 0).val < win0_11.index t (0 : Fin 2) * 1000 + 1000; omega
  | ⟨1, _⟩ => show win0_11.index t (1 : Fin 2) * 64 ≤ (i 1).val ∧ (i 1).val < win0_11.index t (1 : Fin 2) * 64 + 64; omega

/-- The result array after the run is the network's value of the argument arrays. -/
theorem final (c : Dev nD) : (dats m 0 c).arrAt 11 cfg0.N = result m c :=
  (dats m 0 c).arrAt_eq_of_cover 11 (result m c) (fun t _ => flushed_eq m c t) cover

/-- The kernel's run: the result array at the network's value, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.Blocks
end
-- ==== Proof.RefRows.lean ====
/-
  The reference program's result, read row by row.

  The reference joins the seed table and the first-hop table into one table of 600000 rows, and likewise the two
  tables of neighbour means (over five rows of the second table for a seed, over two rows of the third table for a
  first-hop node). It applies the first layer to every row of the joined pair at once, cuts the result back into the
  seeds' rows and the first-hop nodes' rows, averages the latter five by five, and applies the second layer to the
  seeds. Read at one entry, each stage is a finite sum, a quotient or a product of entries of the stage before, so
  the result at seed `n` and output feature `k` is the second layer's gate over the first layer's gate of the
  seed's own row and of its neighbours' rows: the value `Cert.Rows.out` names.
-/
import proofs.«111404_j26465588478206_1_alg».proof.Proof.Gen.ReferenceIdeal.Read
import proofs.«111404_j26465588478206_1_alg».proof.Proof.Rows
import Idealize.ShloMosaic.Lib.Pipeline.Value
import Idealize.ShloMosaic.Lib.ValueIdx
import Idealize.ShloMosaic.PureOps.Ideal.Laws

noncomputable section

open Cert.ReferenceIdeal Cert.ReferenceIdeal.Gen Cert.ReferenceIdeal.Read Idealize.ShloMosaic Idealize.ShloMosaic.ValueIdx Cert.Rows
open scoped BigOperators

namespace Cert.RefRows

/-- Row `n` of the first table as a row of the joined table. -/
def lo (n : Fin 100000) : Fin 600000 := ⟨n.val, by have := n.isLt; omega⟩

/-- Row `m` of the second table as a row of the joined table: it comes after the first table's rows. -/
def hi (m : Fin 500000) : Fin 600000 := ⟨100000 + m.val, by have := m.isLt; omega⟩

/-- The joined table at a row of its first piece. -/
theorem cat_lo (y1 : S100000x128.Idx → EReal) (y2 : S500000x128.Idx → EReal) (n : Fin 100000) (d : Fin 128) :
    concatenate S600000x128 0 [⟨S100000x128, y1⟩, ⟨S500000x128, y2⟩] concatenates_S100000x128_S500000x128_S600000x128_d0
      (ix2 (lo n) d) = y1 (ix2 n d) :=
  concatenate_pair_apply_left 0 y1 y2 _ (ix2 (lo n) d) rfl (ix2 n d)
    (fun b => match b with | ⟨0, _⟩ => rfl | ⟨1, _⟩ => rfl)

/-- The joined table at a row of its second piece. -/
theorem cat_hi (y1 : S100000x128.Idx → EReal) (y2 : S500000x128.Idx → EReal) (m : Fin 500000) (d : Fin 128) :
    concatenate S600000x128 0 [⟨S100000x128, y1⟩, ⟨S500000x128, y2⟩] concatenates_S100000x128_S500000x128_S600000x128_d0
      (ix2 (hi m) d) = y2 (ix2 m d) :=
  concatenate_pair_apply_right 0 y1 y2 _ (ix2 (hi m) d) rfl rfl (ix2 m d)
    (fun b => match b with | ⟨0, _⟩ => fun h => absurd rfl h | ⟨1, _⟩ => fun _ => rfl)
    (by show m.val + 100000 = 100000 + m.val; omega)

/-- The flat row of the pair (seed `n`, neighbour `s`) in the second table, read through the three-axis view. -/
theorem idx_v1_v2 (n : Fin 100000) (d : Fin 128) (s : Fin 5) :
    idx_main_v1 (idx_main_v2 (ix2 n d) s) = ix2 (nbr5 n s) d :=
  funext fun a => Fin.ext (by
    have hd := d.isLt
    match a with
    | ⟨0, _⟩ => show ((n.val * 5 + s.val) * 128 + d.val) / 128 = n.val * 5 + s.val; omega
    | ⟨1, _⟩ => show ((n.val * 5 + s.val) * 128 + d.val) % 128 = d.val; omega)

theorem idx_v32_v33 (n : Fin 100000) (d : Fin 128) (s : Fin 5) :
    idx_main_v32 (idx_main_v33 (ix2 n d) s) = ix2 (nbr5 n s) d :=
  funext fun a => Fin.ext (by
    have hd := d.isLt
    match a with
    | ⟨0, _⟩ => show ((n.val * 5 + s.val) * 128 + d.val) / 128 = n.val * 5 + s.val; omega
    | ⟨1, _⟩ => show ((n.val * 5 + s.val) * 128 + d.val) % 128 = d.val; omega)

theorem idx_v5_v6 (m : Fin 500000) (d : Fin 128) (t : Fin 2) :
    idx_main_v5 (idx_main_v6 (ix2 m d) t) = ix2 (nbr2 m t) d :=
  funext fun a => Fin.ext (by
    have hd := d.isLt
    match a with
    | ⟨0, _⟩ => show ((m.val * 2 + t.val) * 128 + d.val) / 128 = m.val * 2 + t.val; omega
    | ⟨1, _⟩ => show ((m.val * 2 + t.val) * 128 + d.val) % 128 = d.val; omega)

/-- The first neighbour mean: entry `d` of seed `n` is the mean over its five neighbours' rows of the second table. -/
theorem v4_at (x1 : (⟨S500000x128, .f32⟩ : BufTy).Contents (Elt Ideal)) (n : Fin 100000) (d : Fin 128) :
    val_main_v4 (F := Ideal) x1 (ix2 n d) = mean5 fun s => x1 (ix2 (nbr5 n s) d) := by
  rw [val_main_v4_apply, val_main_v2_apply, val_main_v3_apply]
  show Ideal.div (Ideal.ofBits .f32 0x00000000#32 + _) five = _
  rw [Ideal.ofBits_zero_f32, zero_add]
  refine congrArg (Ideal.div · five) (Finset.sum_congr rfl fun s _ => ?_)
  rw [val_main_v1_apply, idx_v1_v2]

/-- The second neighbour mean: entry `d` of first-hop node `m` is the mean over its two neighbours' rows of the third table. -/
theorem v8_at (x2 : (⟨S1000000x128, .f32⟩ : BufTy).Contents (Elt Ideal)) (m : Fin 500000) (d : Fin 128) :
    val_main_v8 (F := Ideal) x2 (ix2 m d) = mean2 fun t => x2 (ix2 (nbr2 m t) d) := by
  rw [val_main_v8_apply, val_main_v6_apply, val_main_v7_apply]
  show Ideal.div (Ideal.ofBits .f32 0x00000000#32 + _) two = _
  rw [Ideal.ofBits_zero_f32, zero_add]
  refine congrArg (Ideal.div · two) (Finset.sum_congr rfl fun t _ => ?_)
  rw [val_main_v5_apply, idx_v5_v6]

/-- The word of one broadcast over an array reads as `Rows.one` everywhere. -/
theorem v22_at (i : S600000x128.Idx) : val_main_v22 (F := Ideal) i = one := by rw [val_main_v22_apply]; rfl
theorem v24_at (i : S600000x128.Idx) : val_main_v24 (F := Ideal) i = one := by rw [val_main_v24_apply]; rfl
theorem v26_at (i : S600000x128.Idx) : val_main_v26 (F := Ideal) i = one := by rw [val_main_v26_apply]; rfl

/-- The first layer's activation pair at any row of the joined table. -/
theorem v19_at (x0 : (⟨S100000x128, .f32⟩ : BufTy).Contents (Elt Ideal)) (x1 : (⟨S500000x128, .f32⟩ : BufTy).Contents (Elt Ideal))
    (x2 : (⟨S1000000x128, .f32⟩ : BufTy).Contents (Elt Ideal)) (x3 x4 : (⟨S128x128, .f32⟩ : BufTy).Contents (Elt Ideal))
    (r : Fin 600000) (j : Fin 128) :
    val_main_v19 (F := Ideal) x0 x1 x2 x3 x4 (ix2 r j) =
      lin (fun d => val_main_v0 (F := Ideal) x0 x1 (ix2 r d)) (fun d => val_main_v9 (F := Ideal) x1 x2 (ix2 r d))
        (fun j d => x3 (ix2 j d)) (fun j d => x4 (ix2 j d)) j := by
  rw [val_main_v19_apply, val_main_v16_apply, val_main_v18_apply]
  unfold lin
  refine congrArg₂ (· + ·) (Finset.sum_congr rfl fun k _ => ?_) (Finset.sum_congr rfl fun k _ => ?_)
  · rw [val_main_v15_apply]
    exact congrArg₂ (· * ·)
      (congrArg _ (funext fun a => by match a with | ⟨0, _⟩ => rfl | ⟨1, _⟩ => rfl))
      (congrArg x3 (funext fun a => by match a with | ⟨0, _⟩ => rfl | ⟨1, _⟩ => rfl))
  · rw [val_main_v17_apply]
    exact congrArg₂ (· * ·)
      (congrArg _ (funext fun a => by match a with | ⟨0, _⟩ => rfl | ⟨1, _⟩ => rfl))
      (congrArg x4 (funext fun a => by match a with | ⟨0, _⟩ => rfl | ⟨1, _⟩ => rfl))

/-- The first layer's threshold pair at any row of the joined table. -/
theorem v14_at (x0 : (⟨S100000x128, .f32⟩ : BufTy).Contents (Elt Ideal)) (x1 : (⟨S500000x128, .f32⟩ : BufTy).Contents (Elt Ideal))
    (x2 : (⟨S1000000x128, .f32⟩ : BufTy).Contents (Elt Ideal)) (x5 x6 : (⟨S128x128, .f32⟩ : BufTy).Contents (Elt Ideal))
    (r : Fin 600000) (j : Fin 128) :
    val_main_v14 (F := Ideal) x0 x1 x2 x5 x6 (ix2 r j) =
      lin (fun d => val_main_v0 (F := Ideal) x0 x1 (ix2 r d)) (fun d => val_main_v9 (F := Ideal) x1 x2 (ix2 r d))
        (fun j d => x5 (ix2 j d)) (fun j d => x6 (ix2 j d)) j := by
  rw [val_main_v14_apply, val_main_v11_apply, val_main_v13_apply]
  unfold lin
  refine congrArg₂ (· + ·) (Finset.sum_congr rfl fun k _ => ?_) (Finset.sum_congr rfl fun k _ => ?_)
  · rw [val_main_v10_apply]
    exact congrArg₂ (· * ·)
      (congrArg _ (funext fun a => by match a with | ⟨0, _⟩ => rfl | ⟨1, _⟩ => rfl))
      (congrArg x5 (funext fun a => by match a with | ⟨0, _⟩ => rfl | ⟨1, _⟩ => rfl))
  · rw [val_main_v12_apply]
    exact congrArg₂ (· * ·)
      (congrArg _ (funext fun a => by match a with | ⟨0, _⟩ => rfl | ⟨1, _⟩ => rfl))
      (congrArg x6 (funext fun a => by match a with | ⟨0, _⟩ => rfl | ⟨1, _⟩ => rfl))

/-- The first layer at any row `r` of the joined table: the gate of that row of the joined features and of the
    joined neighbour means. -/
theorem v29_at (x0 : (⟨S100000x128, .f32⟩ : BufTy).Contents (Elt Ideal)) (x1 : (⟨S500000x128, .f32⟩ : BufTy).Contents (Elt Ideal))
    (x2 : (⟨S1000000x128, .f32⟩ : BufTy).Contents (Elt Ideal)) (x3 x4 x5 x6 : (⟨S128x128, .f32⟩ : BufTy).Contents (Elt Ideal))
    (r : Fin 600000) (j : Fin 128) :
    val_main_v29 (F := Ideal) x0 x1 x2 x3 x4 x5 x6 (ix2 r j) =
      gate (fun d => val_main_v0 (F := Ideal) x0 x1 (ix2 r d)) (fun d => val_main_v9 (F := Ideal) x1 x2 (ix2 r d))
        (fun j d => x3 (ix2 j d)) (fun j d => x4 (ix2 j d)) (fun j d => x5 (ix2 j d)) (fun j d => x6 (ix2 j d)) j := by
  rw [val_main_v29_apply, val_main_v25_apply, val_main_v23_apply, val_main_v21_apply, val_main_v20_apply,
    val_main_v28_apply, val_main_v27_apply, v22_at, v24_at, v26_at, v19_at, v14_at]
  rfl

/-- The first layer's rows of the seeds are the first rows of the joined result. -/
theorem v30_at (x0 : (⟨S100000x128, .f32⟩ : BufTy).Contents (Elt Ideal)) (x1 : (⟨S500000x128, .f32⟩ : BufTy).Contents (Elt Ideal))
    (x2 : (⟨S1000000x128, .f32⟩ : BufTy).Contents (Elt Ideal)) (x3 x4 x5 x6 : (⟨S128x128, .f32⟩ : BufTy).Contents (Elt Ideal))
    (n : Fin 100000) (j : Fin 128) :
    val_main_v30 (F := Ideal) x0 x1 x2 x3 x4 x5 x6 (ix2 n j) = val_main_v29 (F := Ideal) x0 x1 x2 x3 x4 x5 x6 (ix2 (lo n) j) := by
  rw [val_main_v30_apply]
  exact congrArg _ (funext fun a => by match a with | ⟨0, _⟩ => rfl | ⟨1, _⟩ => rfl)

/-- The first layer's rows of the first-hop nodes are the rows of the joined result after the seeds'. -/
theorem v31_at (x0 : (⟨S100000x128, .f32⟩ : BufTy).Contents (Elt Ideal)) (x1 : (⟨S500000x128, .f32⟩ : BufTy).Contents (Elt Ideal))
    (x2 : (⟨S1000000x128, .f32⟩ : BufTy).Contents (Elt Ideal)) (x3 x4 x5 x6 : (⟨S128x128, .f32⟩ : BufTy).Contents (Elt Ideal))
    (m : Fin 500000) (j : Fin 128) :
    val_main_v31 (F := Ideal) x0 x1 x2 x3 x4 x5 x6 (ix2 m j) = val_main_v29 (F := Ideal) x0 x1 x2 x3 x4 x5 x6 (ix2 (hi m) j) := by
  rw [val_main_v31_apply]
  exact congrArg _ (funext fun a => by match a with | ⟨0, _⟩ => rfl | ⟨1, _⟩ => rfl)

/-- The mean of the first layer's rows over a seed's five neighbours. -/
theorem v35_at (x0 : (⟨S100000x128, .f32⟩ : BufTy).Contents (Elt Ideal)) (x1 : (⟨S500000x128, .f32⟩ : BufTy).Contents (Elt Ideal))
    (x2 : (⟨S1000000x128, .f32⟩ : BufTy).Contents (Elt Ideal)) (x3 x4 x5 x6 : (⟨S128x128, .f32⟩ : BufTy).Contents (Elt Ideal))
    (n : Fin 100000) (j : Fin 128) :
    val_main_v35 (F := Ideal) x0 x1 x2 x3 x4 x5 x6 (ix2 n j) =
      mean5 fun s => val_main_v29 (F := Ideal) x0 x1 x2 x3 x4 x5 x6 (ix2 (hi (nbr5 n s)) j) := by
  rw [val_main_v35_apply, val_main_v33_apply, val_main_v34_apply]
  show Ideal.div (Ideal.ofBits .f32 0x00000000#32 + _) five = _
  rw [Ideal.ofBits_zero_f32, zero_add]
  refine congrArg (Ideal.div · five) (Finset.sum_congr rfl fun s _ => ?_)
  rw [val_main_v32_apply, idx_v32_v33, v31_at]

theorem v48_at (i : S100000x64.Idx) : val_main_v48 (F := Ideal) i = one := by rw [val_main_v48_apply]; rfl
theorem v50_at (i : S100000x64.Idx) : val_main_v50 (F := Ideal) i = one := by rw [val_main_v50_apply]; rfl
theorem v52_at (i : S100000x64.Idx) : val_main_v52 (F := Ideal) i = one := by rw [val_main_v52_apply]; rfl

/-- The second layer's activation pair at a seed. -/
theorem v45_at (x0 : (⟨S100000x128, .f32⟩ : BufTy).Contents (Elt Ideal)) (x1 : (⟨S500000x128, .f32⟩ : BufTy).Contents (Elt Ideal))
    (x2 : (⟨S1000000x128, .f32⟩ : BufTy).Contents (Elt Ideal)) (x3 x4 x5 x6 : (⟨S128x128, .f32⟩ : BufTy).Contents (Elt Ideal))
    (x7 x8 : (⟨S64x128, .f32⟩ : BufTy).Contents (Elt Ideal)) (n : Fin 100000) (k : Fin 64) :
    val_main_v45 (F := Ideal) x0 x1 x2 x3 x4 x5 x6 x7 x8 (ix2 n k) =
      lin (fun j => val_main_v30 (F := Ideal) x0 x1 x2 x3 x4 x5 x6 (ix2 n j))
        (fun j => val_main_v35 (F := Ideal) x0 x1 x2 x3 x4 x5 x6 (ix2 n j))
        (fun k j => x7 (ix2 k j)) (fun k j => x8 (ix2 k j)) k := by
  rw [val_main_v45_apply, val_main_v42_apply, val_main_v44_apply]
  unfold lin
  refine congrArg₂ (· + ·) (Finset.sum_congr rfl fun q _ => ?_) (Finset.sum_congr rfl fun q _ => ?_)
  · rw [val_main_v41_apply]
    exact congrArg₂ (· * ·)
      (congrArg _ (funext fun a => by match a with | ⟨0, _⟩ => rfl | ⟨1, _⟩ => rfl))
      (congrArg x7 (funext fun a => by match a with | ⟨0, _⟩ => rfl | ⟨1, _⟩ => rfl))
  · rw [val_main_v43_apply]
    exact congrArg₂ (· * ·)
      (congrArg _ (funext fun a => by match a with | ⟨0, _⟩ => rfl | ⟨1, _⟩ => rfl))
      (congrArg x8 (funext fun a => by match a with | ⟨0, _⟩ => rfl | ⟨1, _⟩ => rfl))

/-- The second layer's threshold pair at a seed. -/
theorem v40_at (x0 : (⟨S100000x128, .f32⟩ : BufTy).Contents (Elt Ideal)) (x1 : (⟨S500000x128, .f32⟩ : BufTy).Contents (Elt Ideal))
    (x2 : (⟨S1000000x128, .f32⟩ : BufTy).Contents (Elt Ideal)) (x3 x4 x5 x6 : (⟨S128x128, .f32⟩ : BufTy).Contents (Elt Ideal))
    (x9 x10 : (⟨S64x128, .f32⟩ : BufTy).Contents (Elt Ideal)) (n : Fin 100000) (k : Fin 64) :
    val_main_v40 (F := Ideal) x0 x1 x2 x3 x4 x5 x6 x9 x10 (ix2 n k) =
      lin (fun j => val_main_v30 (F := Ideal) x0 x1 x2 x3 x4 x5 x6 (ix2 n j))
        (fun j => val_main_v35 (F := Ideal) x0 x1 x2 x3 x4 x5 x6 (ix2 n j))
        (fun k j => x9 (ix2 k j)) (fun k j => x10 (ix2 k j)) k := by
  rw [val_main_v40_apply, val_main_v37_apply, val_main_v39_apply]
  unfold lin
  refine congrArg₂ (· + ·) (Finset.sum_congr rfl fun q _ => ?_) (Finset.sum_congr rfl fun q _ => ?_)
  · rw [val_main_v36_apply]
    exact congrArg₂ (· * ·)
      (congrArg _ (funext fun a => by match a with | ⟨0, _⟩ => rfl | ⟨1, _⟩ => rfl))
      (congrArg x9 (funext fun a => by match a with | ⟨0, _⟩ => rfl | ⟨1, _⟩ => rfl))
  · rw [val_main_v38_apply]
    exact congrArg₂ (· * ·)
      (congrArg _ (funext fun a => by match a with | ⟨0, _⟩ => rfl | ⟨1, _⟩ => rfl))
      (congrArg x10 (funext fun a => by match a with | ⟨0, _⟩ => rfl | ⟨1, _⟩ => rfl))

/-- The second layer at a seed: the gate of the first layer's row of the seed and of the mean of its neighbours' rows. -/
theorem v55_at (x0 : (⟨S100000x128, .f32⟩ : BufTy).Contents (Elt Ideal)) (x1 : (⟨S500000x128, .f32⟩ : BufTy).Contents (Elt Ideal))
    (x2 : (⟨S1000000x128, .f32⟩ : BufTy).Contents (Elt Ideal)) (x3 x4 x5 x6 : (⟨S128x128, .f32⟩ : BufTy).Contents (Elt Ideal))
    (x7 x8 x9 x10 : (⟨S64x128, .f32⟩ : BufTy).Contents (Elt Ideal)) (n : Fin 100000) (k : Fin 64) :
    val_main_v55 (F := Ideal) x0 x1 x2 x3 x4 x5 x6 x7 x8 x9 x10 (ix2 n k) =
      gate (fun j => val_main_v30 (F := Ideal) x0 x1 x2 x3 x4 x5 x6 (ix2 n j))
        (fun j => val_main_v35 (F := Ideal) x0 x1 x2 x3 x4 x5 x6 (ix2 n j))
        (fun k j => x7 (ix2 k j)) (fun k j => x8 (ix2 k j)) (fun k j => x9 (ix2 k j)) (fun k j => x10 (ix2 k j)) k := by
  rw [val_main_v55_apply, val_main_v51_apply, val_main_v49_apply, val_main_v47_apply, val_main_v46_apply,
    val_main_v54_apply, val_main_v53_apply, v48_at, v50_at, v52_at, v45_at, v40_at]
  rfl

/-- The joined feature table at a seed's row and at a first-hop node's row. -/
theorem v0_lo (x0 : (⟨S100000x128, .f32⟩ : BufTy).Contents (Elt Ideal)) (x1 : (⟨S500000x128, .f32⟩ : BufTy).Contents (Elt Ideal))
    (n : Fin 100000) (d : Fin 128) : val_main_v0 (F := Ideal) x0 x1 (ix2 (lo n) d) = x0 (ix2 n d) := cat_lo x0 x1 n d
theorem v0_hi (x0 : (⟨S100000x128, .f32⟩ : BufTy).Contents (Elt Ideal)) (x1 : (⟨S500000x128, .f32⟩ : BufTy).Contents (Elt Ideal))
    (m : Fin 500000) (d : Fin 128) : val_main_v0 (F := Ideal) x0 x1 (ix2 (hi m) d) = x1 (ix2 m d) := cat_hi x0 x1 m d

/-- The joined table of neighbour means at a seed's row and at a first-hop node's row. -/
theorem v9_lo (x1 : (⟨S500000x128, .f32⟩ : BufTy).Contents (Elt Ideal)) (x2 : (⟨S1000000x128, .f32⟩ : BufTy).Contents (Elt Ideal))
    (n : Fin 100000) (d : Fin 128) :
    val_main_v9 (F := Ideal) x1 x2 (ix2 (lo n) d) = mean5 fun s => x1 (ix2 (nbr5 n s) d) :=
  (cat_lo _ _ n d).trans (v4_at x1 n d)
theorem v9_hi (x1 : (⟨S500000x128, .f32⟩ : BufTy).Contents (Elt Ideal)) (x2 : (⟨S1000000x128, .f32⟩ : BufTy).Contents (Elt Ideal))
    (m : Fin 500000) (d : Fin 128) :
    val_main_v9 (F := Ideal) x1 x2 (ix2 (hi m) d) = mean2 fun t => x2 (ix2 (nbr2 m t) d) :=
  (cat_hi _ _ m d).trans (v8_at x2 m d)

/-- The first layer at a seed's row: from the seed's own row and the mean of its five neighbours' rows. -/
theorem v29_lo (x0 : (⟨S100000x128, .f32⟩ : BufTy).Contents (Elt Ideal)) (x1 : (⟨S500000x128, .f32⟩ : BufTy).Contents (Elt Ideal))
    (x2 : (⟨S1000000x128, .f32⟩ : BufTy).Contents (Elt Ideal)) (x3 x4 x5 x6 : (⟨S128x128, .f32⟩ : BufTy).Contents (Elt Ideal))
    (n : Fin 100000) (j : Fin 128) :
    val_main_v29 (F := Ideal) x0 x1 x2 x3 x4 x5 x6 (ix2 (lo n) j) =
      gate (fun d => x0 (ix2 n d)) (fun d => mean5 fun s => x1 (ix2 (nbr5 n s) d))
        (fun j d => x3 (ix2 j d)) (fun j d => x4 (ix2 j d)) (fun j d => x5 (ix2 j d)) (fun j d => x6 (ix2 j d)) j := by
  rw [v29_at]; simp only [v0_lo, v9_lo]

/-- The first layer at a first-hop node's row: from that node's own row and the mean of its two neighbours' rows. -/
theorem v29_hi (x0 : (⟨S100000x128, .f32⟩ : BufTy).Contents (Elt Ideal)) (x1 : (⟨S500000x128, .f32⟩ : BufTy).Contents (Elt Ideal))
    (x2 : (⟨S1000000x128, .f32⟩ : BufTy).Contents (Elt Ideal)) (x3 x4 x5 x6 : (⟨S128x128, .f32⟩ : BufTy).Contents (Elt Ideal))
    (m : Fin 500000) (j : Fin 128) :
    val_main_v29 (F := Ideal) x0 x1 x2 x3 x4 x5 x6 (ix2 (hi m) j) =
      gate (fun d => x1 (ix2 m d)) (fun d => mean2 fun t => x2 (ix2 (nbr2 m t) d))
        (fun j d => x3 (ix2 j d)) (fun j d => x4 (ix2 j d)) (fun j d => x5 (ix2 j d)) (fun j d => x6 (ix2 j d)) j := by
  rw [v29_at]; simp only [v0_hi, v9_hi]

end Cert.RefRows

open Cert.ReferenceIdeal in
/-- The reference's result is the network's value, row by row. -/
theorem Cert.RefRows.reference_eq
    (x0 : (⟨S100000x128, .f32⟩ : BufTy).Contents (Elt Ideal)) (x1 : (⟨S500000x128, .f32⟩ : BufTy).Contents (Elt Ideal)) (x2 : (⟨S1000000x128, .f32⟩ : BufTy).Contents (Elt Ideal))
    (x3 x4 x5 x6 : (⟨S128x128, .f32⟩ : BufTy).Contents (Elt Ideal)) (x7 x8 x9 x10 : (⟨S64x128, .f32⟩ : BufTy).Contents (Elt Ideal)) :
    Cert.ReferenceIdeal.Read.val_main_v55 (F := Ideal) x0 x1 x2 x3 x4 x5 x6 x7 x8 x9 x10 = Cert.Rows.out x0 x1 x2 x3 x4 x5 x6 x7 x8 x9 x10 := by
  funext i
  obtain ⟨n, k, rfl⟩ : ∃ (n : Fin 100000) (k : Fin 64), i = ix2 n k := ⟨i 0, i 1, eq_ix2 i⟩
  rw [Cert.Rows.out_ix2, v55_at]
  unfold outAt rowOut
  simp only [v30_at, v35_at, v29_lo, v29_hi]

end
-- ==== Proof.lean ====
/- The proof of `Cert.Claim`: a two-layer gated graph network on sampled neighbourhoods (fan-out 5, then 2), computed by
   one fused kernel over blocks of 1000 seed nodes, against the plain array program that joins the seed and first-hop
   tables, applies the first layer to all 600000 rows at once and averages afterwards.
   Both programs compute, at seed `n` and output feature `k`, the value `Cert.Rows.out` (Proof/Rows.lean): the
   kernel because each grid step stores its block of it (Proof/BodyRows.lean: a step's stored block at an index;
   Proof/Blocks.lean: the blocks tile the result), the reference because each of its stages read at an index is a
   finite sum, quotient or product of the stage before (Proof/RefRows.lean). No law of arithmetic is needed beyond
   reading the sums: the two programs group every sum the same way, so the inputs' finiteness is never opened.
   The three frames are the kernels' frame runs and the reference's run with the result dropped; the ideal pass
   rewrote nothing, so `preserves` is trivial. -/
import proofs.«111404_j26465588478206_1_alg».proof.Defs
import proofs.«111404_j26465588478206_1_alg».proof.Proof.Gen.Kernel
import proofs.«111404_j26465588478206_1_alg».proof.Proof.Gen.Kernel.Skeleton
import proofs.«111404_j26465588478206_1_alg».proof.Proof.Gen.Kernel.Launch
import proofs.«111404_j26465588478206_1_alg».proof.Proof.Gen.Kernel.Points
import proofs.«111404_j26465588478206_1_alg».proof.Proof.Gen.Kernel.Frame
import proofs.«111404_j26465588478206_1_alg».proof.Proof.Gen.KernelIdeal
import proofs.«111404_j26465588478206_1_alg».proof.Proof.Gen.KernelIdeal.Skeleton
import proofs.«111404_j26465588478206_1_alg».proof.Proof.Gen.KernelIdeal.Launch
import proofs.«111404_j26465588478206_1_alg».proof.Proof.Gen.KernelIdeal.Points
import proofs.«111404_j26465588478206_1_alg».proof.Proof.Gen.KernelIdeal.Frame
import proofs.«111404_j26465588478206_1_alg».proof.Proof.Gen.ReferenceIdeal
import proofs.«111404_j26465588478206_1_alg».proof.Proof.Gen.Pre_finite_inputs
import proofs.«111404_j26465588478206_1_alg».proof.Proof.Gen.KernelIdeal.Value
import proofs.«111404_j26465588478206_1_alg».proof.Proof.Gen.ReferenceIdeal.Run
import proofs.«111404_j26465588478206_1_alg».proof.Proof.Gen.ReferenceIdeal.Read
import proofs.«111404_j26465588478206_1_alg».proof.Proof.Blocks
import proofs.«111404_j26465588478206_1_alg».proof.Proof.RefRows
import Idealize.ShloMosaic.Adequacy
import Idealize.ShloMosaic.Init

noncomputable section

namespace Cert.Proof

open Idealize.ShloMosaic Idealize.SL.Sem Cert.Kernel

/-- The word-level kernel's frame: its generated frame run. -/
theorem frame_k : Cert.frame_Kernel := fun m ρ _ => Cert.Kernel.Gen.frame m ρ

/-- The idealized kernel's frame: its generated frame run. -/
theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end at `Rows.out` of the arguments. -/
theorem algebraic : Cert.algebraic_KernelIdeal_ReferenceIdeal := by
  intro m g m' g' _ hagree
  refine ⟨fun c => Cert.Blocks.result m c, Cert.Blocks.run m g, ?_⟩
  refine (θ_run Cert.ReferenceIdeal.defs _ _).mono (fun _ h c => ⟨(h c).1.trans ?_, (h c).2⟩)
    (Cert.ReferenceIdeal.Value.run (F := Ideal) m' g')
  obtain ⟨h0, h1, h2, h3, h4, h5, h6, h7, h8, h9, h10⟩ := hagree c
  rw [Cert.ReferenceIdeal.Read.val_main_v55_eq, Cert.RefRows.reference_eq, h0, h1, h2, h3, h4, h5, h6, h7, h8, h9, h10]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
